-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩
abbrev S4096 : Shape := ⟨1, ![4096]⟩

abbrev nBuf : Space → Nat
  | .hbm => 33
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .bf16⟩
  | .hbm, ⟨14, _⟩ => ⟨S8192x1, .f32⟩
  | .hbm, ⟨15, _⟩ => ⟨S8192, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  shapeCasts_S8192x1_S8192 : S8192x1.ShapeCasts S8192
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v6) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 90
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x1, .i32⟩
  | .hbm, ⟨36, _⟩ => ⟨S4096x2, .i32⟩
  | .hbm, ⟨37, _⟩ => ⟨S4096, .f32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096x1, .i32⟩
  | .hbm, ⟨59, _⟩ => ⟨S4096x2, .i32⟩
  | .hbm, ⟨60, _⟩ => ⟨S4096, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192, .f32⟩
  | .hbm, ⟨66, _⟩ => ⟨S8192x8192, .i32⟩
  | .hbm, ⟨67, _⟩ => ⟨S8192x8192, .i32⟩
  | .hbm, ⟨68, _⟩ => ⟨S_, .i32⟩
  | .hbm, ⟨69, _⟩ => ⟨S8192x8192, .i32⟩
  | .hbm, ⟨70, _⟩ => ⟨S8192x8192, .i32⟩
  | .hbm, ⟨71, _⟩ => ⟨S8192x8192, .i1⟩
  | .hbm, ⟨72, _⟩ => ⟨S8192x8192, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S8192x8192, .f32⟩
  | .hbm, ⟨79, _⟩ => ⟨S8192x8192, .f32⟩
  | .hbm, ⟨80, _⟩ => ⟨S8192x8192, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_v1 : Ref sig .tc := ⟨.hbm, 16, rfl⟩
abbrev main_call1_c : Ref sig .tc := ⟨.hbm, 17, rfl⟩
abbrev main_call1_v2 : Ref sig .tc := ⟨.hbm, 18, rfl⟩
abbrev main_call1_v3 : Ref sig .tc := ⟨.hbm, 19, rfl⟩
abbrev main_call1_c_0 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c_2 : Ref sig .tc := ⟨.hbm, 27, rfl⟩
abbrev main_call1_v9 : Ref sig .tc := ⟨.hbm, 28, rfl⟩
abbrev main_call1_v10 : Ref sig .tc := ⟨.hbm, 29, rfl⟩
abbrev main_call1_c_3 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_v15 : Ref sig .tc := ⟨.hbm, 35, rfl⟩
abbrev main_call1_v16 : Ref sig .tc := ⟨.hbm, 36, rfl⟩
abbrev main_v8 : Ref sig .tc := ⟨.hbm, 37, rfl⟩
abbrev main_call2_v0 : Ref sig .tc := ⟨.hbm, 38, rfl⟩
abbrev main_call2_v1 : Ref sig .tc := ⟨.hbm, 39, rfl⟩
abbrev main_call2_c : Ref sig .tc := ⟨.hbm, 40, rfl⟩
abbrev main_call2_v2 : Ref sig .tc := ⟨.hbm, 41, rfl⟩
abbrev main_call2_v3 : Ref sig .tc := ⟨.hbm, 42, rfl⟩
abbrev main_call2_c_0 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c_2 : Ref sig .tc := ⟨.hbm, 50, rfl⟩
abbrev main_call2_v9 : Ref sig .tc := ⟨.hbm, 51, rfl⟩
abbrev main_call2_v10 : Ref sig .tc := ⟨.hbm, 52, rfl⟩
abbrev main_call2_c_3 : Ref sig .tc := ⟨.hbm, 53, rfl⟩
abbrev main_call2_v11 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_call2_v15 : Ref sig .tc := ⟨.hbm, 58, rfl⟩
abbrev main_call2_v16 : Ref sig .tc := ⟨.hbm, 59, rfl⟩
abbrev main_v9 : Ref sig .tc := ⟨.hbm, 60, rfl⟩
abbrev main_v10 : Ref sig .tc := ⟨.hbm, 61, rfl⟩
abbrev main_cst_0 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_c : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst_1 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_cst_2 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_cst_3 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_cst_4 : Ref sig .tc := ⟨.hbm, 86, rfl⟩
abbrev main_v30 : Ref sig .tc := ⟨.hbm, 87, rfl⟩
abbrev main_cst_5 : Ref sig .tc := ⟨.hbm, 88, rfl⟩
abbrev main_v31 : Ref sig .tc := ⟨.hbm, 89, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.BSched.lean ====
/-
  The schedule of the denominator kernel on its 8 × 8 grid, and the proof data of its pipeline.

  Point t = 8·i + j handles row tile i and column tile j. Windows 0 and 1 read the SAME array (the normalised rows in
  bf16): window 0 the row tile i, window 1 the column tile j; window 2 is the output column of row tile i. A VMEM scratch
  of 1024 × 1 carries the running row sums from point to point: at j = 0 it is reset to the zero splat and then the tile's
  row sums are added; at j > 0 the tile's row sums are added to what the point before left; at j = 7 the scratch is copied
  into the output window, which the pipeline writes back after that point only. `accAt n` is the scratch after point n.
-/
import proofs.«162119_j65867618451797_1_alg».proof.Proof.Gen.Kernel.Launch
import proofs.«162119_j65867618451797_1_alg».proof.Proof.Gen.Kernel.Skeleton
import proofs.«162119_j65867618451797_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: after the twelve host operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches, decided over the grid -/

/-- The reset branch is taken: the column tile is the first. -/
abbrev condReset (i : grid0.Coords) : Prop := (Scalar.cmpi .ne (Scalar.extui (Scalar.cmpi .eq (BitVec.ofNat 32 (i 1).val) 0#32)) 0#32) = 1#1
theorem hcondReset : ∀ t : Fin cfg0.N, condReset (grid0.coords t) ↔ t.val % 8 = 0 :=
  (by decide +kernel : ∀ t : Fin grid0.N, condReset (grid0.coords t) ↔ t.val % 8 = 0)
/-- The copy-out branch is taken: the column tile is the last. -/
abbrev condOut (i : grid0.Coords) : Prop := k0_cond2 i = 1#1
theorem hcondOut : ∀ t : Fin cfg0.N, condOut (grid0.coords t) ↔ t.val % 8 = 7 :=
  (by decide +kernel : ∀ t : Fin grid0.N, condOut (grid0.coords t) ↔ t.val % 8 = 7)

/-- The inputs are never idle; the output is idle and not written back exactly where the copy-out branch is not taken. -/
theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬condOut (grid0.coords t) → cfg0.idle 2 (grid0.coords t) = true := by decide +kernel
theorem noFlush2 : ∀ t : Fin cfg0.N, ¬condOut (grid0.coords t) → (cfg0.win 2).flush t = false := by decide +kernel
theorem live2 : ∀ t : Fin cfg0.N, condOut (grid0.coords t) → cfg0.idle 2 (grid0.coords t) = false := by decide +kernel

/-! ## The memrefs the body is called with -/

abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The scratch: a whole scoped buffer of the kernel's own. -/
abbrev scM : Memref sig .tc .vmem S1024x1 .f32 := Memref.whole cc0_scratch0

/-! ## The running row sums -/

/-- One point's update of the running row sums `s`: the tile's row sums added (the body's second stored value). -/
abbrev stepAt (c : Dev nD) (t : Fin cfg0.N) (s : Vec F S1024x1 .f32) : Vec F S1024x1 .f32 :=
  k0_pay2 (grid0.coords t) (iblk m c 0 t) (iblk m c 1 t) s

/-- THE ACCUMULATION: the scratch after the body at position `n`. At a first column tile the update of the zero splat,
    elsewhere the update of what the point before left. -/
def accAt (c : Dev nD) : (n : ℕ) → n < cfg0.N → Vec F S1024x1 .f32
  | 0, hn => stepAt m c ⟨0, hn⟩ (k0_pay1 (F := F))
  | n + 1, hn =>
    if (n + 1) % 8 = 0 then stepAt m c ⟨n + 1, hn⟩ (k0_pay1 (F := F))
    else stepAt m c ⟨n + 1, hn⟩ (accAt c n (Nat.lt_of_succ_lt hn))

theorem accAt_reset (c : Dev nD) (t : Fin cfg0.N) (h : t.val % 8 = 0) :
    accAt m c t.val t.isLt = stepAt m c t (k0_pay1 (F := F)) := by
  obtain ⟨n, hn⟩ := t
  cases n with
  | zero => rfl
  | succ n => exact (if_pos h).trans rfl

theorem accAt_step (c : Dev nD) (t : Fin cfg0.N) (h : ¬t.val % 8 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant between points -/

/-- Before the first point the scratch holds anything (the scoped rest as the launch hands it) beside the generator
    register; before any later point it holds what the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The launch's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The pipeline's proof data -/

/-- The proof data on core `c`: the arrays as the region finds them; after the body each input's buffer at its block and
    the output's at the running row sums; the invariant above; nothing owed. The two input windows read one array: each
    holds half of it; the output's array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

end Cert.Kernel.Hand

end
-- ==== Proof.BBody.lean ====
/-
  The denominator kernel's body, run symbolically on any whole memrefs in each of its three control cases, and the
  pipeline's body obligation at a generic grid point.

  The body loads the row tile and the column tile, forms the 1024 × 1024 block of masked, scaled, exponentiated
  similarities, sums each row, and adds the column of row sums to the scratch; before that it resets the scratch at a
  first column tile, after it it copies the scratch into the output's buffer at a last column tile. So in every case the
  scratch ends at the body's second stored value computed from the two tiles and from what the scratch held when that
  value was formed: the zero splat after a reset, otherwise what the point before left.
-/
import proofs.«162119_j65867618451797_1_alg».proof.Proof.BSched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any whole memrefs, case by case -/

/-- Offsets zero on both axes. -/
theorem hz2 : (![0, 0] : Fin 2 → Nat) = fun _ => 0 := by funext a; fin_cases a <;> rfl

/-- The middle case (neither branch taken): the scratch's row sums updated, everything else as found. -/
theorem runMid (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole)
    (hc0 : ¬condReset i) (hc1 : ¬condOut i)
    (x0 x1 : Vec F S1024x256 .bf16) (xo s : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare s
        ∗ (iprop(owns (c : Thread nD τ) arg2 fullShare x0 ∗ owns (c : Thread nD τ) arg3 fullShare x1 ∗ owns (c : Thread nD τ) arg4 fullShare xo ∗ owns (c : Thread nD τ) arg5 fullShare (k0_pay2 i x0 x1 s)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact HS
  ipureintro
  rw [View.read_writes_eq_canon _ _ _ (View.cover_of_tiledL _ S1024x1.size (by sl_kernel_rfl)), View.canon_unit_zero hz2]
  simp only [View.readAt_eq_ld, harg2.read_unread, harg3.read_unread, harg5.read_unread, View.ld_unit_zero (S := S1024x256) hz2, View.ld_unit_zero (S := S1024x1) hz2]

/-- The reset case (first column tile): the scratch at the update of the zero splat, whatever it held. -/
theorem runReset (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole)
    (hc0 : condReset i) (hc1 : ¬condOut i)
    (x0 x1 : Vec F S1024x256 .bf16) (xo s : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare s
        ∗ (iprop(owns (c : Thread nD τ) arg2 fullShare x0 ∗ owns (c : Thread nD τ) arg3 fullShare x1 ∗ owns (c : Thread nD τ) arg4 fullShare xo ∗ owns (c : Thread nD τ) arg5 fullShare (k0_pay2 i x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact HS
  ipureintro
  sl_unfold_words
  rw [View.read_writes_eq_canon _ _ _ (View.cover_of_tiledL _ S1024x1.size (by sl_kernel_rfl)), View.canon_cons_unit_zero hz2]
  simp only [View.readAt_eq_ld, harg2.read_unread, harg3.read_unread, harg5.read_unread, View.ld_unit_zero (S := S1024x256) hz2, View.ld_unit_zero (S := S1024x1) hz2, View.readCov_unit_zero (S := S1024x1) _ hz2]

/-- The copy-out case (last column tile): the scratch updated and copied whole into the output's buffer. -/
theorem runOut (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole)
    (hc0 : ¬condReset i) (hc1 : condOut i)
    (x0 x1 : Vec F S1024x256 .bf16) (xo s : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare s
        ∗ (iprop(owns (c : Thread nD τ) arg2 fullShare x0 ∗ owns (c : Thread nD τ) arg3 fullShare x1 ∗ owns (c : Thread nD τ) arg4 fullShare (k0_pay2 i x0 x1 s) ∗ owns (c : Thread nD τ) arg5 fullShare (k0_pay2 i x0 x1 s)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [View.read_writes_eq_canon _ _ _ (View.cover_of_tiledL _ S1024x1.size (by sl_kernel_rfl)), View.canon_unit_zero hz2]
    simp only [View.readAt_eq_ld, harg2.read_unread, harg3.read_unread, harg5.read_unread, View.ld_unit_zero (S := S1024x256) hz2, View.ld_unit_zero (S := S1024x1) hz2, View.readCov_unit_zero (S := S1024x1) _ hz2]
  iexists _; isplitr; swap; · iexact HS
  ipureintro
  sl_unfold_words
  rw [View.read_writes_eq_canon _ _ _ (View.cover_of_tiledL _ S1024x1.size (by sl_kernel_rfl)), View.canon_unit_zero hz2]
  simp only [View.readAt_eq_ld, harg2.read_unread, harg3.read_unread, harg5.read_unread, View.ld_unit_zero (S := S1024x256) hz2, View.ld_unit_zero (S := S1024x1) hz2, View.readCov_unit_zero (S := S1024x1) _ hz2]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; the point's position in its row of column tiles says
    which case it is in; the invariant hands over the scratch at what the point before left (at anything before the
    first point, where the reset case does not read it) and takes it back at this point's running sums; where the
    copy-out branch is not taken the output's buffer goes back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  by_cases h0 : t.val % 8 = 0
  · have h7 : ¬t.val % 8 = 7 := by omega
    have hcR : condReset (grid0.coords t) := (hcondReset t).mpr h0
    have hcO : ¬condOut (grid0.coords t) := fun h => h7 ((hcondOut t).mp h)
    rw [Dat.leavesExact_idle (dats m 0 c) 2 t (idle2 t hcO) (noFlush2 t hcO)]
    rw [accAt_reset m c t h0]
    by_cases hz : t.val = 0
    · rw [PhiS_castSucc m c t, PhiS_zero m c _ _ hz, PhiA_eq]
      iintro ⟨⟨⟨%ds, HS⟩, Hg⟩, Ho, ⟨%d0, H0⟩, ⟨%d1, H1⟩, ⟨%d2, H2⟩⟩
      iapply (runReset c (grid0.coords t) _ _ _ _ _ _ _ _ hcR hcO (iblk m c 0 t) (iblk m c 1 t) _ ds Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply (runReset c (grid0.coords t) _ _ _ _ _ _ _ _ hcR hcO (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2
  · have hz : t.val ≠ 0 := fun h => h0 (by rw [h])
    have hcR : ¬condReset (grid0.coords t) := fun h => h0 ((hcondReset t).mp h)
    rw [accAt_step m c t h0]
    rw [PhiS_castSucc m c t, PhiS_pos m c _ _ hz]
    by_cases h7 : t.val % 8 = 7
    · have hcO : condOut (grid0.coords t) := (hcondOut t).mpr h7
      rw [show (dats m 0 c).leavesExact 2 t = owns (c : Thread nD τ) (ms2 t) fullShare ((dats m 0 c).after 2 t) from by
        unfold Dat.leavesExact; rw [live2 t hcO], after2, accAt_step m c t h0]
      iintro ⟨⟨HS, Hg⟩, Ho, ⟨%d0, H0⟩, ⟨%d1, H1⟩, ⟨%d2, H2⟩⟩
      iapply (runOut c (grid0.coords t) _ _ _ _ _ _ _ _ hcR hcO (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · have hcO : ¬condOut (grid0.coords t) := fun h => h7 ((hcondOut t).mp h)
      rw [Dat.leavesExact_idle (dats m 0 c) 2 t (idle2 t hcO) (noFlush2 t hcO)]
      iintro ⟨⟨HS, Hg⟩, Ho, ⟨%d0, H0⟩, ⟨%d1, H1⟩, ⟨%d2, H2⟩⟩
      iapply (runMid c (grid0.coords t) _ _ _ _ _ _ _ _ hcR hcO (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point the invariant gives it back: the scratch's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.Kernel.Hand

end
-- ==== Proof.Spec.lean ====
/-
  The mathematics both programs compute, stated once over the extended reals.

  Both programs first normalise the 8192 rows (the two inputs stacked) of 256 features; call the result `n`.
  Everything after that is a function of `n` alone:
    sim r c   = Σ_k n[r,k] · n[c,k]                       the similarity of rows r and c
    term r c  = exp ((if r = c then 0 else sim r c) · 2)   the diagonal forced to zero before the exponential
    den r     = Σ_c term r c                               the softmax denominator of row r
    pos r     = sim r (r + 4096 mod 8192)                  the similarity with the row's positive partner
    loss      = (0 + Σ_r −log (exp (pos r / ½) / den r)) / 8192
  The float words `0`, `½` and `8192` of the last line are the same on both sides and are kept as words.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- 8192 rows of 256 extended reals: the normalised features. -/
abbrev Rows : Type := (⟨2, ![8192, 256]⟩ : Shape).Idx → EReal

/-- The similarity of rows `r` and `c`: their dot product. -/
def sim (n : Rows) (r c : Fin 8192) : EReal := ∑ k : Fin 256, n (ix2 r k) * n (ix2 c k)

/-- One summand of a row's denominator: the similarity, forced to zero on the diagonal, times two, exponentiated. -/
def term (n : Rows) (r c : Fin 8192) : EReal := Ideal.exp ((if r = c then 0 else sim n r c) * 2)

/-- The denominator of row `r`: the sum of its 8192 summands. -/
def den (n : Rows) (r : Fin 8192) : EReal := ∑ c : Fin 8192, term n r c

/-- The positive partner of row `r`: the same sample in the other half. -/
def partner (r : Fin 8192) : Fin 8192 := ⟨(r.val + 4096) % 8192, Nat.mod_lt _ (by decide)⟩

/-- The similarity of row `r` with its partner. -/
def pos (n : Rows) (r : Fin 8192) : EReal := sim n r (partner r)

/-- The loss from a numerator exponent `p` and a denominator `d` per row: the mean of −log (exp (p r / ½) / d r),
    the sum started from the zero word and the mean taken by the division by the word 8192. -/
def lossOf (p d : Fin 8192 → EReal) : EReal :=
  Ideal.div (Ideal.ofBits .f32 0x00000000#32 + ∑ r : Fin 8192,
      -(Ideal.log (Ideal.div (Ideal.exp (Ideal.div (p r) (Ideal.ofBits .f32 0x3F000000#32))) (d r))))
    (Ideal.ofBits .f32 0x46000000#32)

/-- The loss of the normalised rows `n`. -/
def loss (n : Rows) : EReal := lossOf (pos n) (den n)

/-- The similarity is symmetric. -/
theorem sim_comm (n : Rows) (r c : Fin 8192) : sim n r c = sim n c r := by
  unfold sim; exact Finset.sum_congr rfl fun k _ => mul_comm _ _

end Cert.Spec

end
-- ==== Proof.BHost.lean ====
/-
  What the kernel program's host operations compute, as functions of a valuation of the buffers, apart from
  the kernel region.

  Before the region: the two inputs are stacked into 8192 rows of 256 features and every row is divided by
  max(‖row‖, ε), ε the float word 0x2B8CBCCC; the result is the array of normalised rows, and the region is
  handed its bf16 conversion.
  After the region: row i of the first half is multiplied entrywise with row i of the second half and summed,
  which is the dot product of row i with row i + 4096; the 4096 dot products are laid twice end to end, so that
  row r reads the dot product of r with its partner (for r in the second half by the symmetry of the dot
  product); then the loss is taken row by row and averaged: (0 + Σ_r −log (exp (p r / ½) / d r)) / 8192, with d the
  region's result read as a vector.
-/
import proofs.«162119_j65867618451797_1_alg».proof.Proof.Gen.Kernel.Launch
import proofs.«162119_j65867618451797_1_alg».proof.Proof.Spec
import Idealize.ShloMosaic.Lib.StableHlo.Run
import Idealize.ShloMosaic.Lib.ValueIdx
import Idealize.ShloMosaic.Lib.ValueIdxRank1
import Idealize.ShloMosaic.Lib.Pipeline.Value
import Idealize.ShloMosaic.PureOps.Ideal.Laws
import Idealize.ShloMosaic.Lib.IdealHost

noncomputable section

namespace Cert.Kernel.HostSide

open Cert.Kernel Cert.Kernel.Gen Idealize.ShloMosaic Idealize.ShloMosaic.StableHlo

variable {F : FTy → Type} [FloatOps F]

/-! ## Before the region -/

/-- The host operations before the region, in order. -/
abbrev preOps : List (HloOp τ sig (Elt F)) := List.flatten [hostOps0, hostOps0_1, hostOps0_2]

/-- The normalised rows: the stacked inputs divided row by row by max(‖row‖, word 0x2B8CBCCC), the norm the
    square root of the zero word plus the sum of the row's squares. -/
def nK (x0 x1 : (⟨S4096x256, .f32⟩ : BufTy).Contents (Elt F)) : (⟨S8192x256, .f32⟩ : BufTy).Contents (Elt F) :=
  Host.divf (concatenate S8192x256 0 [⟨S4096x256, x0⟩, ⟨S4096x256, x1⟩] concatenates_S4096x256_S4096x256_S8192x256_d0) (broadcastInDim S8192x256 ![0, 1] bcast_S8192x1_S8192x256_0_1 (maximumf (Host.sqrt (broadcastInDim S8192x1 ![0] bcast_S8192_S8192x1_0 (Host.reduceAdd (mulf (concatenate S8192x256 0 [⟨S4096x256, x0⟩, ⟨S4096x256, x1⟩] concatenates_S4096x256_S4096x256_S8192x256_d0) (concatenate S8192x256 0 [⟨S4096x256, x0⟩, ⟨S4096x256, x1⟩] concatenates_S4096x256_S4096x256_S8192x256_d0)) (constant S_ .f32 0x00000000#32) reducesTo_S8192x256_S8192_d1 h_S_))) (broadcastInDim S8192x1 ![] bcast_S_S8192x1 (constant S_ .f32 0x2B8CBCCC#32))))

/-- After the operations before the region, the buffer of the divide holds the normalised rows of the two arguments. -/
theorem pre_v5 (W : Valuation τ sig (Elt F)) :
    StableHlo.after preOps W (Proc.devRef .tc main_v5)
      = nK (W (Proc.devRef .tc main_arg0)) (W (Proc.devRef .tc main_arg1)) := by
  simp only [preOps, hostOps0, hostOps0_1, hostOps0_2, List.flatten_cons, List.flatten_nil, List.append_nil, List.cons_append,
    List.nil_append]
  after_results
  rfl

/-- … and the buffer handed to the region holds their conversion to bf16. -/
theorem pre_v6 (W : Valuation τ sig (Elt F)) :
    StableHlo.after preOps W (Proc.devRef .tc main_v6)
      = truncf .bf16 (nK (W (Proc.devRef .tc main_arg0)) (W (Proc.devRef .tc main_arg1))) bitsLt_bf16_f32 := by
  simp only [preOps, hostOps0, hostOps0_1, hostOps0_2, List.flatten_cons, List.flatten_nil, List.append_nil, List.cons_append,
    List.nil_append]
  after_results
  rfl

/-- No operation before the region writes a buffer other than the twelve results. -/
theorem pre_not_written (b : Ref sig .tc)
    (hb : b ≠ main_v0 ∧ b ≠ main_call0_v0 ∧ b ≠ main_call0_cst ∧ b ≠ main_call0_v1 ∧ b ≠ main_call0_v2 ∧ b ≠ main_v1
      ∧ b ≠ main_cst ∧ b ≠ main_v2 ∧ b ≠ main_v3 ∧ b ≠ main_v4 ∧ b ≠ main_v5 ∧ b ≠ main_v6) :
    ∀ op ∈ (preOps (F := F)), Proc.devRef .tc b ∉ op.writes := by
  obtain ⟨h0, h1, h2, h3, h4, h5, h6, h7, h8, h9, h10, h11⟩ := hb
  intro op hop
  simp only [preOps, hostOps0, hostOps0_1, hostOps0_2, List.flatten_cons, List.flatten_nil, List.append_nil, List.cons_append,
    List.nil_append, List.mem_cons, List.mem_nil_iff, or_false] at hop
  rcases hop with rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

/-- The first argument reaches the region as launched. -/
theorem pre_arg0 (W : Valuation τ sig (Elt F)) :
    StableHlo.after preOps W (Proc.devRef .tc main_arg0) = W (Proc.devRef .tc main_arg0) :=
  StableHlo.after_of_forall_not_mem (b := Proc.devRef .tc main_arg0) preOps W (pre_not_written main_arg0 (by decide))

/-- The second argument reaches the region as launched. -/
theorem pre_arg1 (W : Valuation τ sig (Elt F)) :
    StableHlo.after preOps W (Proc.devRef .tc main_arg1) = W (Proc.devRef .tc main_arg1) :=
  StableHlo.after_of_forall_not_mem (b := Proc.devRef .tc main_arg1) preOps W (pre_not_written main_arg1 (by decide))

/-! ## After the region -/

/-- The dot product of row i of the first half of the rows with row i of the second half, from the zero word. -/
def halfDots (n5 : (⟨S8192x256, .f32⟩ : BufTy).Contents (Elt F)) : (⟨S4096, .f32⟩ : BufTy).Contents (Elt F) :=
  Host.reduceAdd (mulf (extractStridedSlice S4096x256 ![0, 0] n5 slices_S8192x256_S4096x256_0_0) (extractStridedSlice S4096x256 ![4096, 0] n5 slices_S8192x256_S4096x256_4096_0)) (constant S_ .f32 0x00000000#32) reducesTo_S4096x256_S4096_d1 h_S_

/-- The host operations after the region, as one function of the rows and the region's result: the mean over the
    rows of −log (exp (p / ½) / d), p the half dot products laid twice end to end, d the region's result as a vector. -/
def tailFn (n5 : (⟨S8192x256, .f32⟩ : BufTy).Contents (Elt F)) (d7 : (⟨S8192x1, .f32⟩ : BufTy).Contents (Elt F)) :
    (⟨S_, .f32⟩ : BufTy).Contents (Elt F) :=
  Host.divf (Host.reduceAdd (Host.negf (Host.log (Host.divf (Host.exp (Host.divf (concatenate S8192 0 [⟨S4096, halfDots n5⟩, ⟨S4096, halfDots n5⟩] concatenates_S4096_S4096_S8192_d0) (broadcastInDim S8192 ![] bcast_S_S8192 (constant S_ .f32 0x3F000000#32)))) (shapeCast S8192 d7 shapeCasts_S8192x1_S8192)))) (constant S_ .f32 0x00000000#32) reducesTo_S8192_S_d0 h_S_) (constant S_ .f32 0x46000000#32)

/-- After the operations that follow the region, the result buffer holds that function of the rows' buffer and the
    region's result buffer. -/
theorem tail_v21 (W : Valuation τ sig (Elt F)) :
    StableHlo.after hostOps1 W (Proc.devRef .tc main_v21)
      = tailFn (W (Proc.devRef .tc main_v5)) (W (Proc.devRef .tc main_v7)) := by
  simp only [hostOps1]
  after_results
  rfl

/-- No operation after the region writes a buffer other than the eighteen results. -/
theorem tail_not_written (b : Ref sig .tc)
    (hb : b ≠ main_v8 ∧ b ≠ main_v9 ∧ b ≠ main_v10 ∧ b ≠ main_v11 ∧ b ≠ main_cst_0 ∧ b ≠ main_v12 ∧ b ≠ main_v13
      ∧ b ≠ main_cst_1 ∧ b ≠ main_v14 ∧ b ≠ main_v15 ∧ b ≠ main_v16 ∧ b ≠ main_v17 ∧ b ≠ main_v18 ∧ b ≠ main_v19
      ∧ b ≠ main_cst_2 ∧ b ≠ main_v20 ∧ b ≠ main_cst_3 ∧ b ≠ main_v21) :
    ∀ op ∈ (hostOps1 (F := F)), Proc.devRef .tc b ∉ op.writes := by
  obtain ⟨h0, h1, h2, h3, h4, h5, h6, h7, h8, h9, h10, h11, h12, h13, h14, h15, h16, h17⟩ := hb
  intro op hop
  simp only [hostOps1, List.mem_cons, List.mem_nil_iff, or_false] at hop
  rcases hop with rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- The first argument reaches the end as it left the region. -/
theorem tail_arg0 (W : Valuation τ sig (Elt F)) :
    StableHlo.after hostOps1 W (Proc.devRef .tc main_arg0) = W (Proc.devRef .tc main_arg0) :=
  StableHlo.after_of_forall_not_mem (b := Proc.devRef .tc main_arg0) hostOps1 W (tail_not_written main_arg0 (by decide))

/-- The second argument reaches the end as it left the region. -/
theorem tail_arg1 (W : Valuation τ sig (Elt F)) :
    StableHlo.after hostOps1 W (Proc.devRef .tc main_arg1) = W (Proc.devRef .tc main_arg1) :=
  StableHlo.after_of_forall_not_mem (b := Proc.devRef .tc main_arg1) hostOps1 W (tail_not_written main_arg1 (by decide))

/-! ## The tail at the ideal values -/

section AtIdeal

open Idealize.ShloMosaic.ValueIdx

/-- In the sum over the 256 features of a 4096-row array, the summed index over row i at feature k is (i, k). -/
theorem lift_half (h : S4096x256.Reduces [1] S4096) (i : Fin 4096) (k : Fin 256) :
    h.lift (ix1 i) k = ix2 i k := by
  funext a
  match a with
  | ⟨0, _⟩ => exact Fin.ext rfl
  | ⟨1, _⟩ => exact Fin.ext rfl

/-- A sum over the indices of a vector of 8192 entries is the sum over its 8192 coordinates. -/
theorem sum_rows (f : S8192.Idx → EReal) : ∑ i, f i = ∑ r : Fin 8192, f (ix1 r) :=
  (Equiv.sum_comp (idxEquiv1 (n := 8192)).symm f).symm

/-- The first 4096 rows, at (i, k): the rows at (i, k). -/
theorem slice_lo (n5 : (⟨S8192x256, .f32⟩ : BufTy).Contents (Elt Ideal)) (i : Fin 4096) (k : Fin 256) :
    extractStridedSlice S4096x256 ![0, 0] n5 slices_S8192x256_S4096x256_0_0 (ix2 i k)
      = n5 (ix2 (⟨i.val, by omega⟩ : Fin 8192) k) := by
  refine extractStridedSlice_apply _ _ _ _ _ fun a => ?_
  match a with
  | ⟨0, _⟩ => exact (Nat.zero_add _).symm
  | ⟨1, _⟩ => exact (Nat.zero_add _).symm

/-- The last 4096 rows, at (i, k): the rows at (i + 4096, k). -/
theorem slice_hi (n5 : (⟨S8192x256, .f32⟩ : BufTy).Contents (Elt Ideal)) (i : Fin 4096) (k : Fin 256) :
    extractStridedSlice S4096x256 ![4096, 0] n5 slices_S8192x256_S4096x256_4096_0 (ix2 i k)
      = n5 (ix2 (⟨i.val + 4096, by omega⟩ : Fin 8192) k) := by
  refine extractStridedSlice_apply _ _ _ _ _ fun a => ?_
  match a with
  | ⟨0, _⟩ => exact Nat.add_comm _ _
  | ⟨1, _⟩ => exact (Nat.zero_add _).symm

/-- The half dot products at row i: the similarity of row i with row i + 4096 (the zero word adds nothing). -/
theorem halfDots_apply (n5 : (⟨S8192x256, .f32⟩ : BufTy).Contents (Elt Ideal)) (i : Fin 4096) :
    halfDots (F := Ideal) n5 (ix1 i)
      = Cert.Spec.sim n5 (⟨i.val, by omega⟩ : Fin 8192) (⟨i.val + 4096, by omega⟩ : Fin 8192) := by
  have hred : S4096x256.Reduces [1] S4096 := by decide
  unfold halfDots Cert.Spec.sim
  rw [hostReduceAdd_apply, Ideal.hostReduceAdd_single _ hred, constant_apply, Ideal.ofBits_zero_f32, zero_add]
  refine Finset.sum_congr rfl fun (k : Fin 256) _ => ?_
  rw [lift_half hred i k, mulf_apply, slice_lo n5 i k, slice_hi n5 i k]

/-- The half dot products laid twice end to end, at row r: the similarity of row r with its partner; in the second
    half by the symmetry of the similarity. -/
theorem pos_apply (n5 : (⟨S8192x256, .f32⟩ : BufTy).Contents (Elt Ideal)) (r : Fin 8192) :
    concatenate S8192 0 [⟨S4096, halfDots (F := Ideal) n5⟩, ⟨S4096, halfDots (F := Ideal) n5⟩]
        concatenates_S4096_S4096_S8192_d0 (ix1 r)
      = Cert.Spec.pos n5 r := by
  unfold Cert.Spec.pos Cert.Spec.partner
  by_cases hr : r.val < 4096
  · rw [concatenate_pair_apply_left (0 : Fin S8192.rank) _ _ concatenates_S4096_S4096_S8192_d0 (ix1 r) rfl
      (ix1 (⟨r.val, hr⟩ : Fin 4096)) (fun b => by match b with | ⟨0, _⟩ => rfl)]
    rw [halfDots_apply]
    exact congrArg₂ (Cert.Spec.sim n5) (Fin.ext rfl) (Fin.ext (by show r.val + 4096 = (r.val + 4096) % 8192; omega))
  · have hr' : r.val - 4096 < 4096 := by have := r.isLt; omega
    rw [concatenate_pair_apply_right (0 : Fin S8192.rank) _ _ concatenates_S4096_S4096_S8192_d0 (ix1 r) rfl rfl
      (ix1 (⟨r.val - 4096, hr'⟩ : Fin 4096)) (fun b hb => absurd (Fin.ext (by have : b.val < 1 := b.isLt; show b.val = 0; omega)) hb)
      (by show r.val - 4096 + 4096 = r.val; omega)]
    rw [halfDots_apply, Cert.Spec.sim_comm]
    exact congrArg₂ (Cert.Spec.sim n5) (Fin.ext (by show r.val - 4096 + 4096 = r.val; omega))
      (Fin.ext (by show r.val - 4096 = (r.val + 4096) % 8192; omega))

/-- The region's result read as a vector, at row r: its entry (r, 0). -/
theorem den_apply (d7 : (⟨S8192x1, .f32⟩ : BufTy).Contents (Elt Ideal)) (r : Fin 8192) :
    shapeCast S8192 d7 shapeCasts_S8192x1_S8192 (ix1 r) = d7 (ix2 r (0 : Fin 1)) := by
  refine shapeCast_apply _ _ _ _ ?_
  rw [Shape.rowMajor_val_two, Shape.rowMajor_val_one]
  show r.val * 1 + 0 = r.val
  omega

/-- At the ideal values the tail is the loss with numerator exponent the similarity of each row with its partner and
    denominator the region's result. -/
theorem tailFn_ideal (n5 : (⟨S8192x256, .f32⟩ : BufTy).Contents (Elt Ideal))
    (d7 : (⟨S8192x1, .f32⟩ : BufTy).Contents (Elt Ideal)) :
    tailFn (F := Ideal) n5 d7 = fun _ => Cert.Spec.lossOf (Cert.Spec.pos n5) (fun r => d7 (ValueIdx.ix2 r 0)) := by
  funext j
  unfold tailFn Cert.Spec.lossOf
  rw [hostDivf_apply, constant_apply, hostReduceAdd_apply, Ideal.hostReduceAdd_total _ (fun b => b.elim0), constant_apply, sum_rows]
  refine congrArg (fun s => Ideal.div (Ideal.ofBits .f32 0x00000000#32 + s) (Ideal.ofBits .f32 0x46000000#32)) ?_
  refine Finset.sum_congr rfl fun (r : Fin 8192) _ => ?_
  show -(Ideal.log (Ideal.div (Ideal.exp (Ideal.div (concatenate S8192 0 [⟨S4096, halfDots (F := Ideal) n5⟩, ⟨S4096, halfDots (F := Ideal) n5⟩] concatenates_S4096_S4096_S8192_d0 (ix1 r)) (broadcastInDim S8192 ![] bcast_S_S8192 (constant (F := Ideal) S_ .f32 0x3F000000#32) (ix1 r)))) (shapeCast S8192 d7 shapeCasts_S8192x1_S8192 (ix1 r)))) = _
  rw [pos_apply, den_apply, broadcastInDim_scalar_apply, constant_apply]

end AtIdeal

end Cert.Kernel.HostSide

end
-- ==== Proof.BLaunch.lean ====
/-
  The launch of the denominator kernel's program: @main is twelve host operations, one kernel region, eighteen host
  operations, and the region's two input windows read ONE array.

  The pipeline's account of the region wants each window's array as a separate resource, so the one buffer behind the
  two input windows is held as two halves, one per window, while the region runs: split at entry, joined again at the
  exit so that the later host operations, which run over all of the core's unscoped buffers, find it whole, and split
  once more where the arrays are handed back. The output's array is held whole throughout. Nothing else of the core's
  unscoped buffers is touched by the region; the later operations write neither array. The final state is read off
  buffer by buffer: every buffer that is no array of the pipeline holds what the later operations compute from the
  contents at the region's exit — the output's array at what the write-backs left, every other buffer as entered.
-/
import proofs.«162119_j65867618451797_1_alg».proof.Proof.BBody
import Idealize.ShloMosaic.Lib.Pipeline.Kit
import proofs.«162119_j65867618451797_1_alg».proof.Proof.BHost
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs unscopedRest)

/-- The shares the proof data holds the three windows' arrays at. -/
theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The pipeline's arrays at contents that agree on the shared array are that array whole and the output's array whole:
    the two input windows hold the two halves of the one buffer behind them. -/
theorem arrays_pts (c : Dev nD) (G : (w : Fin cfg0.W) → Buf (Elt F) ((cfg0.win w).arr.view.loc (c : Thread nD τ)))
    (f6 : Buf (Elt F) ((c : Thread nD τ).loc main_v6)) (f7 : Buf (Elt F) ((c : Thread nD τ).loc main_v7))
    (h0 : G 0 = f6) (h1 : G 1 = f6) (h2 : G 2 = f7) :
    ((dats m 0 c).arrays G : sProp 𝕄) ⊣⊢ iprop((((c : Thread nD τ).loc main_v6) ↦{fullShare} f6) ∗ (((c : Thread nD τ).loc main_v7) ↦{fullShare} f7)) := by
  unfold Dat.arrays
  rw [bigSep_W0]
  rw [(arr_whole0 0).set_eq_univ, (arr_whole0 2).set_eq_univ, share0, share1, share2, h0, h1, h2]
  constructor
  · iintro ⟨Hl, Hr, H7⟩
    isplitl [Hl Hr]
    · iapply (pointsTo_share (PosShare.mem_left_op_right fullShare)).2
      isplitl [Hl] <;> iassumption
    · iexact H7
  · refine (sep_mono (pointsTo_share (PosShare.mem_left_op_right fullShare)).1 .rfl).trans ?_
    iintro ⟨⟨Hl, Hr⟩, H7⟩
    isplitl [Hl]; · iexact Hl
    isplitl [Hr]; · iexact Hr
    iexact H7

/-! ## The core's buffers around the region -/

/-- The core's buffers at the region's exit: the output's array at what the write-backs left, every other as entered. -/
def Wexit (c : Dev nD) : Valuation τ sig (Elt F) := by
  classical
  exact Function.update (V0 m c) (Proc.devRef .tc main_v7) ((dats m 0 c).arrAt 2 cfg0.N)

/-- The core's buffers at the end: after the eighteen host operations that follow the region. -/
def Wfin (c : Dev nD) : Valuation τ sig (Elt F) := StableHlo.after hostOps1 (Wexit m c)

theorem Wexit_v7 (c : Dev nD) : Wexit m c (Proc.devRef .tc main_v7) = (dats m 0 c).arrAt 2 cfg0.N := by
  classical
  unfold Wexit; exact Function.update_self _ _ _

theorem Wexit_of_ne (c : Dev nD) (b : Ref sig .tc) (hb : b ≠ main_v7) : Wexit m c (Proc.devRef .tc b) = V m c b := by
  classical
  unfold Wexit; exact Function.update_of_ne (fun h => hb (Proc.devRef_injective _ h)) _ _

/-- The later operations write neither array of the pipeline. -/
theorem Wfin_v6 (c : Dev nD) : Wfin m c (Proc.devRef .tc main_v6) = V m c main_v6 :=
  (StableHlo.after_of_forall_not_mem (b := Proc.devRef .tc main_v6) hostOps1 (Wexit m c)
    (Cert.Kernel.HostSide.tail_not_written main_v6 (by decide))).trans (Wexit_of_ne m c main_v6 (by decide))
theorem Wfin_v7 (c : Dev nD) : Wfin m c (Proc.devRef .tc main_v7) = (dats m 0 c).arrAt 2 cfg0.N :=
  (StableHlo.after_of_forall_not_mem (b := Proc.devRef .tc main_v7) hostOps1 (Wexit m c)
    (Cert.Kernel.HostSide.tail_not_written main_v7 (by decide))).trans (Wexit_v7 m c)

/-- The two distinct buffers behind the three windows, listed. -/
theorem arrBufs_pts (c : Dev nD) (W : (b : Ref sig .tc) → Buf (Elt F) ((c : Thread nD τ).loc b)) :
    (arrBufs (Ix := Unit) (Name := ℕ) (U := UR sig nD τ) (Lvl := ℕ) spec0 c W : sProp 𝕄)
      = iprop((((c : Thread nD τ).loc main_v6) ↦{fullShare} W main_v6) ∗ (((c : Thread nD τ).loc main_v7) ↦{fullShare} W main_v7)) := by
  unfold arrBufs
  exact bigSep_eq_bigSepL_of_eq [main_v6, main_v7] (by decide) (by decide) _

/-- The bypassing buffers do not see a change of the valuation at the arrays. -/
theorem unscopedRest_congr (c : Dev nD) (W W' : (b : Ref sig .tc) → Buf (Elt F) ((c : Thread nD τ).loc b))
    (h : ∀ b, b ≠ main_v6 → b ≠ main_v7 → W b = W' b) :
    (unscopedRest (Ix := Unit) (Name := ℕ) (U := UR sig nD τ) (Lvl := ℕ) spec0 c W : sProp 𝕄) = unscopedRest spec0 c W' := by
  unfold unscopedRest
  refine bigSep_congr fun b hb => ?_
  have hnot := (Finset.mem_sdiff.mp hb).2
  rw [h b (fun e => hnot (e ▸ (by decide : main_v6 ∈ Finset.univ.image (Pipeline.arrRef spec0))))
    (fun e => hnot (e ▸ (by decide : main_v7 ∈ Finset.univ.image (Pipeline.arrRef spec0))))]

/-- All the unscoped buffers held at a valuation: the two arrays' buffers and the bypassing ones. -/
theorem held_split (c : Dev nD) (W : Valuation τ sig (Elt F)) :
    (StableHlo.held (c : Thread nD τ) (Pipeline.ucRefs τ sig) W : sProp 𝕄)
      = iprop(((((c : Thread nD τ).loc main_v6) ↦{fullShare} W (Proc.devRef .tc main_v6)) ∗ (((c : Thread nD τ).loc main_v7) ↦{fullShare} W (Proc.devRef .tc main_v7)))
          ∗ unscopedRest spec0 c (fun b => W (Proc.devRef .tc b))) := by
  rw [← Pipeline.unscopedBufs_held (Ix := Unit) (Name := ℕ) (U := UR sig nD τ) (Lvl := ℕ) c W,
    Pipeline.unscopedBufs_split₀ cfgs 0 winFacts₀0.arr_unscoped c, arrBufs_pts]

/-! ## @main around the region -/

theorem preOps_fresh : ([hostOps0, hostOps0_1, hostOps0_2] : List (List (HloOp τ sig (Elt F)))).Forall fun ops => ops.Forall fun op => op.fresh = ∅ := by
  simp only [List.Forall]; repeat' constructor
theorem hostOps1_fresh : (hostOps1 : List (HloOp τ sig (Elt F))).Forall fun op => op.fresh = ∅ := by
  simp only [List.Forall]; repeat' constructor

/-- @main is twelve host operations, the region, eighteen host operations: it reduces to the region continued by the
    later operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] ⟨hostOps0_sub, hostOps0_1_sub, hostOps0_2_sub⟩
    preOps_fresh main_chain

/-- At entry the two buffers behind the windows make the pipeline's arrays: the shared one split between the two inputs. -/
theorem hsplit (c : Dev nD) :
    (arrBufs (Ix := Unit) (Name := ℕ) (U := UR sig nD τ) (Lvl := ℕ) spec0 c (V m c) : sProp 𝕄) ⊢ (dats m 0 c).arrays ((dats m 0 c).arrAt · 0) := by
  rw [arrBufs_pts]
  exact (arrays_pts m c _ (V m c main_v6) (V m c main_v7) (A_eq m c 0) (A_eq m c 1) (A_eq m c 2)).2

/-- THE OPERATIONS AFTER THE REGION. From the region's exit — the arrays at their final contents, the bypassing buffers as
    entered — the halves of the shared array are joined, the eighteen operations run over all the unscoped buffers, and
    the arrays, which none of them writes, are handed back as the pipeline's arrays, the shared one split again. -/
theorem htail (𝒱₀ : Variants) (c : Dev nD) (Q' : PUnit → sProp 𝕄) :
    iprop((iprop((dats m 0 c).arrays ((dats m 0 c).arrAt · cfg0.N) ∗ unscopedRest spec0 c (fun b => Wfin m c (Proc.devRef .tc b))) -∗ Q' ⟨⟩)
        ∗ boundary (c : Thread nD τ) ∗ (dats m 0 c).arrays ((dats m 0 c).arrAt · cfg0.N) ∗ unscopedRest spec0 c (V m c))
      ⊢ wp frame (wpE (Pipeline.defs (fun q => Cfg.toPCfg (Val := Elt F) (cfgs q)) defs₀) (Variants.lift 𝒱₀) (c : Thread nD τ) none) Set.univ
          (Pipeline.chain [StableHlo.seq hostOps1]) Q' := by
  have hin6 : (dats m 0 c).arrAt 0 cfg0.N = V m c main_v6 := ((dats m 0 c).arrAt_in 0 rfl _).trans (A_eq m c 0)
  have hin6' : (dats m 0 c).arrAt 1 cfg0.N = V m c main_v6 := ((dats m 0 c).arrAt_in 1 rfl _).trans (A_eq m c 1)
  have hA := arrays_pts m c (fun w => (dats m 0 c).arrAt w cfg0.N) (V m c main_v6) ((dats m 0 c).arrAt 2 cfg0.N) hin6 hin6' rfl
  have hW : (StableHlo.held (c : Thread nD τ) (Pipeline.ucRefs τ sig) (Wexit m c) : sProp 𝕄)
      = iprop(((((c : Thread nD τ).loc main_v6) ↦{fullShare} V m c main_v6) ∗ (((c : Thread nD τ).loc main_v7) ↦{fullShare} (dats m 0 c).arrAt 2 cfg0.N))
          ∗ unscopedRest spec0 c (V m c)) := by
    rw [held_split, Wexit_v7, Wexit_of_ne m c main_v6 (by decide), unscopedRest_congr c _ (V m c) (fun b _ h7 => Wexit_of_ne m c b h7)]
  have hW' : (StableHlo.held (c : Thread nD τ) (Pipeline.ucRefs τ sig) (Wfin m c) : sProp 𝕄)
      = iprop(((((c : Thread nD τ).loc main_v6) ↦{fullShare} V m c main_v6) ∗ (((c : Thread nD τ).loc main_v7) ↦{fullShare} (dats m 0 c).arrAt 2 cfg0.N))
          ∗ unscopedRest spec0 c (fun b => Wfin m c (Proc.devRef .tc b))) := by
    rw [held_split, Wfin_v6, Wfin_v7]
  have hsub1 : ∀ ops ∈ ([hostOps1] : List (List (HloOp τ sig (Elt F)))), ∀ op ∈ ops, op.bufs ⊆ Pipeline.ucRefs τ sig := by
    intro ops hops op hop
    simp only [List.mem_cons, List.mem_nil_iff, or_false] at hops
    subst hops
    exact Pipeline.sub_ucRefs op ((List.forall_iff_forall_mem.mp hostOps1_sub) op hop)
  have hfresh1 : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  have hflat : StableHlo.after (([hostOps1] : List (List (HloOp τ sig (Elt F)))).flatten) (Wexit m c) = Wfin m c := by
    unfold Wfin; rw [List.flatten_cons, List.flatten_nil, List.append_nil]
  refine (sep_mono .rfl (show iprop(boundary (c : Thread nD τ) ∗ (dats m 0 c).arrays ((dats m 0 c).arrAt · cfg0.N) ∗ unscopedRest spec0 c (V m c))
      ⊢ (iprop(boundary (c : Thread nD τ) ∗ StableHlo.held (c : Thread nD τ) (Pipeline.ucRefs τ sig) (Wexit m c)) : sProp 𝕄) from by
    rw [hW]; exact sep_mono .rfl (sep_mono hA.1 .rfl))).trans ?_
  rw [show (Pipeline.chain [StableHlo.seq (hostOps1 (F := F))] : Prog _ PUnit)
      = Pipeline.chain ((([hostOps1] : List (List (HloOp τ sig (Elt F)))).map StableHlo.seq) ++ []) from rfl]
  iintro ⟨Hk, Hb⟩
  iapply (Pipeline.wp_seqs_then (fun q => Cfg.toPCfg (Val := Elt F) (cfgs q)) defs₀ 𝒱₀ c (Pipeline.ucRefs τ sig) [] [hostOps1] hsub1 hfresh1 (Wexit m c)) $$ Hb
  iintro Hb
  rw [Pipeline.chain_nil, wp_pure, hflat, hW']
  imodintro
  iapply Hk
  icases Hb with ⟨-, ⟨Hp, Hr⟩⟩
  isplitl [Hp]
  · iapply hA.2; iexact Hp
  · iexact Hr

/-! ## The run -/

/-- What a final state must hold: every unscoped buffer that is no array of the pipeline at the final valuation. -/
def QFin (r : PUnit × MemSt nD τ sig (Elt F)) : Prop :=
  ∀ c : Dev nD, ∀ b ∈ Pipeline.restRefs sig spec0, r.2.mem ((c : Thread nD τ).loc b) = Wfin m c (Proc.devRef .tc b)

-- the launch theorem's implicit arguments are found by unifying its conclusion with this one, which takes unfolding plain
-- definitions in a metavariable's type
set_option backward.isDefEq.respectTransparency.types false in
/-- At the compiled mesh, for any float values, from any memory with zero counters: every weakly fair execution of @main
    terminates, nothing faulting, and every final state has each bypassing buffer at the final valuation. -/
theorem run_main : θ_run defs (onTc (τ := τ) (main (F := F))) ⟨m, fun _ => 0, ρ⟩ (QFin m) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) spec0 c (V m c))
    (Z' := fun c => unscopedRest (Ix := Unit) (Name := ℕ) (U := UR sig nD τ) (Lvl := ℕ) spec0 c (fun b => Wfin m c (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m Variants.none c Q')
    (QY := fun c s => ∀ b ∈ Pipeline.restRefs sig spec0, s.mem ((c : Thread nD τ).loc b) = Wfin m c (Proc.devRef .tc b))
    (hY := fun c s' => by
      iintro ⟨-, HU, HSI⟩
      unfold unscopedRest
      imodintro
      iapply (pointsTo_read_all (Pipeline.restRefs sig spec0) (fun b => (c : Thread nD τ).loc b) (fun b => Wfin m c (Proc.devRef .tc b)) s')
      isplitl [HU] <;> iassumption)
    (hQ := fun s h c => (h c).2.2)

/-! ## What the run gives -/

open Cert.Kernel.HostSide in
/-- The arguments end as launched: no host operation writes them and the region does not stage them. -/
theorem Wfin_arg0 (c : Dev nD) : Wfin m c (Proc.devRef .tc main_arg0) = m ((c : Thread nD τ).loc main_arg0) :=
  (tail_arg0 (Wexit m c)).trans ((Wexit_of_ne m c main_arg0 (by decide)).trans (pre_arg0 (fun b => m (c, b))))
open Cert.Kernel.HostSide in
theorem Wfin_arg1 (c : Dev nD) : Wfin m c (Proc.devRef .tc main_arg1) = m ((c : Thread nD τ).loc main_arg1) :=
  (tail_arg1 (Wexit m c)).trans ((Wexit_of_ne m c main_arg1 (by decide)).trans (pre_arg1 (fun b => m (c, b))))

open Cert.Kernel.HostSide in
/-- The rows the later operations read are the normalised rows of the arguments, -/
theorem V_v5 (c : Dev nD) : V m c main_v5 = nK (m ((c : Thread nD τ).loc main_arg0)) (m ((c : Thread nD τ).loc main_arg1)) :=
  pre_v5 (fun b => m (c, b))
open Cert.Kernel.HostSide in
/-- the array the region reads is their conversion to the narrower format, -/
theorem V_v6 (c : Dev nD) : V m c main_v6 = truncf .bf16 (nK (m ((c : Thread nD τ).loc main_arg0)) (m ((c : Thread nD τ).loc main_arg1))) bitsLt_bf16_f32 :=
  pre_v6 (fun b => m (c, b))
open Cert.Kernel.HostSide in
/-- and the result is the later operations' function of those rows and of what the region left in its output array. -/
theorem Wfin_v21 (c : Dev nD) :
    Wfin m c (Proc.devRef .tc main_v21)
      = tailFn (nK (m ((c : Thread nD τ).loc main_arg0)) (m ((c : Thread nD τ).loc main_arg1))) ((dats m 0 c).arrAt 2 cfg0.N) := by
  unfold Wfin
  rw [tail_v21, Wexit_v7, Wexit_of_ne m c main_v5 (by decide), V_v5]

/-- THE FRAME: every weakly fair execution of @main terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_arg0 (by decide)).trans (Wfin_arg0 m c), (h c main_arg1 (by decide)).trans (Wfin_arg1 m c)⟩)
    (run_main m ρ)

open Cert.Kernel.HostSide in
/-- THE RUN WITH ITS RESULT NAMED: as the frame, and the result buffer ends at the later operations' function of the
    normalised rows and of the region's final output array. -/
theorem run_result : θ_run defs (onTc (τ := τ) (main (F := F))) ⟨m, fun _ => 0, ρ⟩ (fun r => ∀ c : Dev nD,
      r.2.mem ((c.tc : Thread nD τ).loc main_v21)
        = tailFn (nK (m ((c : Thread nD τ).loc main_arg0)) (m ((c : Thread nD τ).loc main_arg1))) ((dats m 0 c).arrAt 2 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_v21 (by decide)).trans (Wfin_v21 m c),
      (h c main_arg0 (by decide)).trans (Wfin_arg0 m c), (h c main_arg1 (by decide)).trans (Wfin_arg1 m c)⟩)
    (run_main m ρ)

end Cert.Kernel.Hand

end
-- ==== Proof.KSched.lean ====
/-
  The schedule of the denominator kernel on its 8 × 8 grid, and the proof data of its pipeline.

  Point t = 8·i + j handles row tile i and column tile j. Windows 0 and 1 read the SAME array (the normalised rows in
  bf16): window 0 the row tile i, window 1 the column tile j; window 2 is the output column of row tile i. A VMEM scratch
  of 1024 × 1 carries the running row sums from point to point: at j = 0 it is reset to the zero splat and then the tile's
  row sums are added; at j > 0 the tile's row sums are added to what the point before left; at j = 7 the scratch is copied
  into the output window, which the pipeline writes back after that point only. `accAt n` is the scratch after point n.
-/
import proofs.«162119_j65867618451797_1_alg».proof.Proof.Gen.KernelIdeal.Launch
import proofs.«162119_j65867618451797_1_alg».proof.Proof.Gen.KernelIdeal.Skeleton
import proofs.«162119_j65867618451797_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: after the twelve host operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches, decided over the grid -/

/-- The reset branch is taken: the column tile is the first. -/
abbrev condReset (i : grid0.Coords) : Prop := (Scalar.cmpi .ne (Scalar.extui (Scalar.cmpi .eq (BitVec.ofNat 32 (i 1).val) 0#32)) 0#32) = 1#1
theorem hcondReset : ∀ t : Fin cfg0.N, condReset (grid0.coords t) ↔ t.val % 8 = 0 :=
  (by decide +kernel : ∀ t : Fin grid0.N, condReset (grid0.coords t) ↔ t.val % 8 = 0)
/-- The copy-out branch is taken: the column tile is the last. -/
abbrev condOut (i : grid0.Coords) : Prop := k0_cond2 i = 1#1
theorem hcondOut : ∀ t : Fin cfg0.N, condOut (grid0.coords t) ↔ t.val % 8 = 7 :=
  (by decide +kernel : ∀ t : Fin grid0.N, condOut (grid0.coords t) ↔ t.val % 8 = 7)

/-- The inputs are never idle; the output is idle and not written back exactly where the copy-out branch is not taken. -/
theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬condOut (grid0.coords t) → cfg0.idle 2 (grid0.coords t) = true := by decide +kernel
theorem noFlush2 : ∀ t : Fin cfg0.N, ¬condOut (grid0.coords t) → (cfg0.win 2).flush t = false := by decide +kernel
theorem live2 : ∀ t : Fin cfg0.N, condOut (grid0.coords t) → cfg0.idle 2 (grid0.coords t) = false := by decide +kernel

/-! ## The memrefs the body is called with -/

abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The scratch: a whole scoped buffer of the kernel's own. -/
abbrev scM : Memref sig .tc .vmem S1024x1 .f32 := Memref.whole cc0_scratch0

/-! ## The running row sums -/

/-- One point's update of the running row sums `s`: the tile's row sums added (the body's second stored value). -/
abbrev stepAt (c : Dev nD) (t : Fin cfg0.N) (s : Vec F S1024x1 .f32) : Vec F S1024x1 .f32 :=
  k0_pay2 (grid0.coords t) (iblk m c 0 t) (iblk m c 1 t) s

/-- THE ACCUMULATION: the scratch after the body at position `n`. At a first column tile the update of the zero splat,
    elsewhere the update of what the point before left. -/
def accAt (c : Dev nD) : (n : ℕ) → n < cfg0.N → Vec F S1024x1 .f32
  | 0, hn => stepAt m c ⟨0, hn⟩ (k0_pay1 (F := F))
  | n + 1, hn =>
    if (n + 1) % 8 = 0 then stepAt m c ⟨n + 1, hn⟩ (k0_pay1 (F := F))
    else stepAt m c ⟨n + 1, hn⟩ (accAt c n (Nat.lt_of_succ_lt hn))

theorem accAt_reset (c : Dev nD) (t : Fin cfg0.N) (h : t.val % 8 = 0) :
    accAt m c t.val t.isLt = stepAt m c t (k0_pay1 (F := F)) := by
  obtain ⟨n, hn⟩ := t
  cases n with
  | zero => rfl
  | succ n => exact (if_pos h).trans rfl

theorem accAt_step (c : Dev nD) (t : Fin cfg0.N) (h : ¬t.val % 8 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant between points -/

/-- Before the first point the scratch holds anything (the scoped rest as the launch hands it) beside the generator
    register; before any later point it holds what the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The launch's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The pipeline's proof data -/

/-- The proof data on core `c`: the arrays as the region finds them; after the body each input's buffer at its block and
    the output's at the running row sums; the invariant above; nothing owed. The two input windows read one array: each
    holds half of it; the output's array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

end Cert.KernelIdeal.Hand

end
-- ==== Proof.KBody.lean ====
/-
  The denominator kernel's body, run symbolically on any whole memrefs in each of its three control cases, and the
  pipeline's body obligation at a generic grid point.

  The body loads the row tile and the column tile, forms the 1024 × 1024 block of masked, scaled, exponentiated
  similarities, sums each row, and adds the column of row sums to the scratch; before that it resets the scratch at a
  first column tile, after it it copies the scratch into the output's buffer at a last column tile. So in every case the
  scratch ends at the body's second stored value computed from the two tiles and from what the scratch held when that
  value was formed: the zero splat after a reset, otherwise what the point before left.
-/
import proofs.«162119_j65867618451797_1_alg».proof.Proof.KSched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any whole memrefs, case by case -/

/-- Offsets zero on both axes. -/
theorem hz2 : (![0, 0] : Fin 2 → Nat) = fun _ => 0 := by funext a; fin_cases a <;> rfl

/-- The middle case (neither branch taken): the scratch's row sums updated, everything else as found. -/
theorem runMid (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole)
    (hc0 : ¬condReset i) (hc1 : ¬condOut i)
    (x0 x1 : Vec F S1024x256 .bf16) (xo s : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare s
        ∗ (iprop(owns (c : Thread nD τ) arg2 fullShare x0 ∗ owns (c : Thread nD τ) arg3 fullShare x1 ∗ owns (c : Thread nD τ) arg4 fullShare xo ∗ owns (c : Thread nD τ) arg5 fullShare (k0_pay2 i x0 x1 s)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact HS
  ipureintro
  rw [View.read_writes_eq_canon _ _ _ (View.cover_of_tiledL _ S1024x1.size (by sl_kernel_rfl)), View.canon_unit_zero hz2]
  simp only [View.readAt_eq_ld, harg2.read_unread, harg3.read_unread, harg5.read_unread, View.ld_unit_zero (S := S1024x256) hz2, View.ld_unit_zero (S := S1024x1) hz2]

/-- The reset case (first column tile): the scratch at the update of the zero splat, whatever it held. -/
theorem runReset (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole)
    (hc0 : condReset i) (hc1 : ¬condOut i)
    (x0 x1 : Vec F S1024x256 .bf16) (xo s : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare s
        ∗ (iprop(owns (c : Thread nD τ) arg2 fullShare x0 ∗ owns (c : Thread nD τ) arg3 fullShare x1 ∗ owns (c : Thread nD τ) arg4 fullShare xo ∗ owns (c : Thread nD τ) arg5 fullShare (k0_pay2 i x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact HS
  ipureintro
  sl_unfold_words
  rw [View.read_writes_eq_canon _ _ _ (View.cover_of_tiledL _ S1024x1.size (by sl_kernel_rfl)), View.canon_cons_unit_zero hz2]
  simp only [View.readAt_eq_ld, harg2.read_unread, harg3.read_unread, harg5.read_unread, View.ld_unit_zero (S := S1024x256) hz2, View.ld_unit_zero (S := S1024x1) hz2, View.readCov_unit_zero (S := S1024x1) _ hz2]

/-- The copy-out case (last column tile): the scratch updated and copied whole into the output's buffer. -/
theorem runOut (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole)
    (hc0 : ¬condReset i) (hc1 : condOut i)
    (x0 x1 : Vec F S1024x256 .bf16) (xo s : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare s
        ∗ (iprop(owns (c : Thread nD τ) arg2 fullShare x0 ∗ owns (c : Thread nD τ) arg3 fullShare x1 ∗ owns (c : Thread nD τ) arg4 fullShare (k0_pay2 i x0 x1 s) ∗ owns (c : Thread nD τ) arg5 fullShare (k0_pay2 i x0 x1 s)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [View.read_writes_eq_canon _ _ _ (View.cover_of_tiledL _ S1024x1.size (by sl_kernel_rfl)), View.canon_unit_zero hz2]
    simp only [View.readAt_eq_ld, harg2.read_unread, harg3.read_unread, harg5.read_unread, View.ld_unit_zero (S := S1024x256) hz2, View.ld_unit_zero (S := S1024x1) hz2, View.readCov_unit_zero (S := S1024x1) _ hz2]
  iexists _; isplitr; swap; · iexact HS
  ipureintro
  sl_unfold_words
  rw [View.read_writes_eq_canon _ _ _ (View.cover_of_tiledL _ S1024x1.size (by sl_kernel_rfl)), View.canon_unit_zero hz2]
  simp only [View.readAt_eq_ld, harg2.read_unread, harg3.read_unread, harg5.read_unread, View.ld_unit_zero (S := S1024x256) hz2, View.ld_unit_zero (S := S1024x1) hz2, View.readCov_unit_zero (S := S1024x1) _ hz2]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; the point's position in its row of column tiles says
    which case it is in; the invariant hands over the scratch at what the point before left (at anything before the
    first point, where the reset case does not read it) and takes it back at this point's running sums; where the
    copy-out branch is not taken the output's buffer goes back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  by_cases h0 : t.val % 8 = 0
  · have h7 : ¬t.val % 8 = 7 := by omega
    have hcR : condReset (grid0.coords t) := (hcondReset t).mpr h0
    have hcO : ¬condOut (grid0.coords t) := fun h => h7 ((hcondOut t).mp h)
    rw [Dat.leavesExact_idle (dats m 0 c) 2 t (idle2 t hcO) (noFlush2 t hcO)]
    rw [accAt_reset m c t h0]
    by_cases hz : t.val = 0
    · rw [PhiS_castSucc m c t, PhiS_zero m c _ _ hz, PhiA_eq]
      iintro ⟨⟨⟨%ds, HS⟩, Hg⟩, Ho, ⟨%d0, H0⟩, ⟨%d1, H1⟩, ⟨%d2, H2⟩⟩
      iapply (runReset c (grid0.coords t) _ _ _ _ _ _ _ _ hcR hcO (iblk m c 0 t) (iblk m c 1 t) _ ds Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply (runReset c (grid0.coords t) _ _ _ _ _ _ _ _ hcR hcO (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2
  · have hz : t.val ≠ 0 := fun h => h0 (by rw [h])
    have hcR : ¬condReset (grid0.coords t) := fun h => h0 ((hcondReset t).mp h)
    rw [accAt_step m c t h0]
    rw [PhiS_castSucc m c t, PhiS_pos m c _ _ hz]
    by_cases h7 : t.val % 8 = 7
    · have hcO : condOut (grid0.coords t) := (hcondOut t).mpr h7
      rw [show (dats m 0 c).leavesExact 2 t = owns (c : Thread nD τ) (ms2 t) fullShare ((dats m 0 c).after 2 t) from by
        unfold Dat.leavesExact; rw [live2 t hcO], after2, accAt_step m c t h0]
      iintro ⟨⟨HS, Hg⟩, Ho, ⟨%d0, H0⟩, ⟨%d1, H1⟩, ⟨%d2, H2⟩⟩
      iapply (runOut c (grid0.coords t) _ _ _ _ _ _ _ _ hcR hcO (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · have hcO : ¬condOut (grid0.coords t) := fun h => h7 ((hcondOut t).mp h)
      rw [Dat.leavesExact_idle (dats m 0 c) 2 t (idle2 t hcO) (noFlush2 t hcO)]
      iintro ⟨⟨HS, Hg⟩, Ho, ⟨%d0, H0⟩, ⟨%d1, H1⟩, ⟨%d2, H2⟩⟩
      iapply (runMid c (grid0.coords t) _ _ _ _ _ _ _ _ hcR hcO (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point the invariant gives it back: the scratch's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.KernelIdeal.Hand

end
-- ==== Proof.KHost.lean ====
/-
  What the kernel program's host operations compute, as functions of a valuation of the buffers, apart from
  the kernel region.

  Before the region: the two inputs are stacked into 8192 rows of 256 features and every row is divided by
  max(‖row‖, ε), ε the float word 0x2B8CBCCC; the result is the array of normalised rows, and the region is
  handed its bf16 conversion.
  After the region: row i of the first half is multiplied entrywise with row i of the second half and summed,
  which is the dot product of row i with row i + 4096; the 4096 dot products are laid twice end to end, so that
  row r reads the dot product of r with its partner (for r in the second half by the symmetry of the dot
  product); then the loss is taken row by row and averaged: (0 + Σ_r −log (exp (p r / ½) / d r)) / 8192, with d the
  region's result read as a vector.
-/
import proofs.«162119_j65867618451797_1_alg».proof.Proof.Gen.KernelIdeal.Launch
import proofs.«162119_j65867618451797_1_alg».proof.Proof.Spec
import Idealize.ShloMosaic.Lib.StableHlo.Run
import Idealize.ShloMosaic.Lib.ValueIdx
import Idealize.ShloMosaic.Lib.ValueIdxRank1
import Idealize.ShloMosaic.Lib.Pipeline.Value
import Idealize.ShloMosaic.PureOps.Ideal.Laws
import Idealize.ShloMosaic.Lib.IdealHost

noncomputable section

namespace Cert.KernelIdeal.HostSide

open Cert.KernelIdeal Cert.KernelIdeal.Gen Idealize.ShloMosaic Idealize.ShloMosaic.StableHlo

variable {F : FTy → Type} [FloatOps F]

/-! ## Before the region -/

/-- The host operations before the region, in order. -/
abbrev preOps : List (HloOp τ sig (Elt F)) := List.flatten [hostOps0, hostOps0_1, hostOps0_2]

/-- The normalised rows: the stacked inputs divided row by row by max(‖row‖, word 0x2B8CBCCC), the norm the
    square root of the zero word plus the sum of the row's squares. -/
def nK (x0 x1 : (⟨S4096x256, .f32⟩ : BufTy).Contents (Elt F)) : (⟨S8192x256, .f32⟩ : BufTy).Contents (Elt F) :=
  Host.divf (concatenate S8192x256 0 [⟨S4096x256, x0⟩, ⟨S4096x256, x1⟩] concatenates_S4096x256_S4096x256_S8192x256_d0) (broadcastInDim S8192x256 ![0, 1] bcast_S8192x1_S8192x256_0_1 (maximumf (Host.sqrt (broadcastInDim S8192x1 ![0] bcast_S8192_S8192x1_0 (Host.reduceAdd (mulf (concatenate S8192x256 0 [⟨S4096x256, x0⟩, ⟨S4096x256, x1⟩] concatenates_S4096x256_S4096x256_S8192x256_d0) (concatenate S8192x256 0 [⟨S4096x256, x0⟩, ⟨S4096x256, x1⟩] concatenates_S4096x256_S4096x256_S8192x256_d0)) (constant S_ .f32 0x00000000#32) reducesTo_S8192x256_S8192_d1 h_S_))) (broadcastInDim S8192x1 ![] bcast_S_S8192x1 (constant S_ .f32 0x2B8CBCCC#32))))

/-- After the operations before the region, the buffer of the divide holds the normalised rows of the two arguments. -/
theorem pre_v5 (W : Valuation τ sig (Elt F)) :
    StableHlo.after preOps W (Proc.devRef .tc main_v5)
      = nK (W (Proc.devRef .tc main_arg0)) (W (Proc.devRef .tc main_arg1)) := by
  simp only [preOps, hostOps0, hostOps0_1, hostOps0_2, List.flatten_cons, List.flatten_nil, List.append_nil, List.cons_append,
    List.nil_append]
  after_results
  rfl

/-- … and the buffer handed to the region holds their conversion to bf16. -/
theorem pre_v6 (W : Valuation τ sig (Elt F)) :
    StableHlo.after preOps W (Proc.devRef .tc main_v6)
      = truncf .bf16 (nK (W (Proc.devRef .tc main_arg0)) (W (Proc.devRef .tc main_arg1))) bitsLt_bf16_f32 := by
  simp only [preOps, hostOps0, hostOps0_1, hostOps0_2, List.flatten_cons, List.flatten_nil, List.append_nil, List.cons_append,
    List.nil_append]
  after_results
  rfl

/-- No operation before the region writes a buffer other than the twelve results. -/
theorem pre_not_written (b : Ref sig .tc)
    (hb : b ≠ main_v0 ∧ b ≠ main_call0_v0 ∧ b ≠ main_call0_cst ∧ b ≠ main_call0_v1 ∧ b ≠ main_call0_v2 ∧ b ≠ main_v1
      ∧ b ≠ main_cst ∧ b ≠ main_v2 ∧ b ≠ main_v3 ∧ b ≠ main_v4 ∧ b ≠ main_v5 ∧ b ≠ main_v6) :
    ∀ op ∈ (preOps (F := F)), Proc.devRef .tc b ∉ op.writes := by
  obtain ⟨h0, h1, h2, h3, h4, h5, h6, h7, h8, h9, h10, h11⟩ := hb
  intro op hop
  simp only [preOps, hostOps0, hostOps0_1, hostOps0_2, List.flatten_cons, List.flatten_nil, List.append_nil, List.cons_append,
    List.nil_append, List.mem_cons, List.mem_nil_iff, or_false] at hop
  rcases hop with rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

/-- The first argument reaches the region as launched. -/
theorem pre_arg0 (W : Valuation τ sig (Elt F)) :
    StableHlo.after preOps W (Proc.devRef .tc main_arg0) = W (Proc.devRef .tc main_arg0) :=
  StableHlo.after_of_forall_not_mem (b := Proc.devRef .tc main_arg0) preOps W (pre_not_written main_arg0 (by decide))

/-- The second argument reaches the region as launched. -/
theorem pre_arg1 (W : Valuation τ sig (Elt F)) :
    StableHlo.after preOps W (Proc.devRef .tc main_arg1) = W (Proc.devRef .tc main_arg1) :=
  StableHlo.after_of_forall_not_mem (b := Proc.devRef .tc main_arg1) preOps W (pre_not_written main_arg1 (by decide))

/-! ## After the region -/

/-- The dot product of row i of the first half of the rows with row i of the second half, from the zero word. -/
def halfDots (n5 : (⟨S8192x256, .f32⟩ : BufTy).Contents (Elt F)) : (⟨S4096, .f32⟩ : BufTy).Contents (Elt F) :=
  Host.reduceAdd (mulf (extractStridedSlice S4096x256 ![0, 0] n5 slices_S8192x256_S4096x256_0_0) (extractStridedSlice S4096x256 ![4096, 0] n5 slices_S8192x256_S4096x256_4096_0)) (constant S_ .f32 0x00000000#32) reducesTo_S4096x256_S4096_d1 h_S_

/-- The host operations after the region, as one function of the rows and the region's result: the mean over the
    rows of −log (exp (p / ½) / d), p the half dot products laid twice end to end, d the region's result as a vector. -/
def tailFn (n5 : (⟨S8192x256, .f32⟩ : BufTy).Contents (Elt F)) (d7 : (⟨S8192x1, .f32⟩ : BufTy).Contents (Elt F)) :
    (⟨S_, .f32⟩ : BufTy).Contents (Elt F) :=
  Host.divf (Host.reduceAdd (Host.negf (Host.log (Host.divf (Host.exp (Host.divf (concatenate S8192 0 [⟨S4096, halfDots n5⟩, ⟨S4096, halfDots n5⟩] concatenates_S4096_S4096_S8192_d0) (broadcastInDim S8192 ![] bcast_S_S8192 (constant S_ .f32 0x3F000000#32)))) (shapeCast S8192 d7 shapeCasts_S8192x1_S8192)))) (constant S_ .f32 0x00000000#32) reducesTo_S8192_S_d0 h_S_) (constant S_ .f32 0x46000000#32)

/-- After the operations that follow the region, the result buffer holds that function of the rows' buffer and the
    region's result buffer. -/
theorem tail_v21 (W : Valuation τ sig (Elt F)) :
    StableHlo.after hostOps1 W (Proc.devRef .tc main_v21)
      = tailFn (W (Proc.devRef .tc main_v5)) (W (Proc.devRef .tc main_v7)) := by
  simp only [hostOps1]
  after_results
  rfl

/-- No operation after the region writes a buffer other than the eighteen results. -/
theorem tail_not_written (b : Ref sig .tc)
    (hb : b ≠ main_v8 ∧ b ≠ main_v9 ∧ b ≠ main_v10 ∧ b ≠ main_v11 ∧ b ≠ main_cst_0 ∧ b ≠ main_v12 ∧ b ≠ main_v13
      ∧ b ≠ main_cst_1 ∧ b ≠ main_v14 ∧ b ≠ main_v15 ∧ b ≠ main_v16 ∧ b ≠ main_v17 ∧ b ≠ main_v18 ∧ b ≠ main_v19
      ∧ b ≠ main_cst_2 ∧ b ≠ main_v20 ∧ b ≠ main_cst_3 ∧ b ≠ main_v21) :
    ∀ op ∈ (hostOps1 (F := F)), Proc.devRef .tc b ∉ op.writes := by
  obtain ⟨h0, h1, h2, h3, h4, h5, h6, h7, h8, h9, h10, h11, h12, h13, h14, h15, h16, h17⟩ := hb
  intro op hop
  simp only [hostOps1, List.mem_cons, List.mem_nil_iff, or_false] at hop
  rcases hop with rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- The first argument reaches the end as it left the region. -/
theorem tail_arg0 (W : Valuation τ sig (Elt F)) :
    StableHlo.after hostOps1 W (Proc.devRef .tc main_arg0) = W (Proc.devRef .tc main_arg0) :=
  StableHlo.after_of_forall_not_mem (b := Proc.devRef .tc main_arg0) hostOps1 W (tail_not_written main_arg0 (by decide))

/-- The second argument reaches the end as it left the region. -/
theorem tail_arg1 (W : Valuation τ sig (Elt F)) :
    StableHlo.after hostOps1 W (Proc.devRef .tc main_arg1) = W (Proc.devRef .tc main_arg1) :=
  StableHlo.after_of_forall_not_mem (b := Proc.devRef .tc main_arg1) hostOps1 W (tail_not_written main_arg1 (by decide))

/-! ## The tail at the ideal values -/

section AtIdeal

open Idealize.ShloMosaic.ValueIdx

/-- In the sum over the 256 features of a 4096-row array, the summed index over row i at feature k is (i, k). -/
theorem lift_half (h : S4096x256.Reduces [1] S4096) (i : Fin 4096) (k : Fin 256) :
    h.lift (ix1 i) k = ix2 i k := by
  funext a
  match a with
  | ⟨0, _⟩ => exact Fin.ext rfl
  | ⟨1, _⟩ => exact Fin.ext rfl

/-- A sum over the indices of a vector of 8192 entries is the sum over its 8192 coordinates. -/
theorem sum_rows (f : S8192.Idx → EReal) : ∑ i, f i = ∑ r : Fin 8192, f (ix1 r) :=
  (Equiv.sum_comp (idxEquiv1 (n := 8192)).symm f).symm

/-- The first 4096 rows, at (i, k): the rows at (i, k). -/
theorem slice_lo (n5 : (⟨S8192x256, .f32⟩ : BufTy).Contents (Elt Ideal)) (i : Fin 4096) (k : Fin 256) :
    extractStridedSlice S4096x256 ![0, 0] n5 slices_S8192x256_S4096x256_0_0 (ix2 i k)
      = n5 (ix2 (⟨i.val, by omega⟩ : Fin 8192) k) := by
  refine extractStridedSlice_apply _ _ _ _ _ fun a => ?_
  match a with
  | ⟨0, _⟩ => exact (Nat.zero_add _).symm
  | ⟨1, _⟩ => exact (Nat.zero_add _).symm

/-- The last 4096 rows, at (i, k): the rows at (i + 4096, k). -/
theorem slice_hi (n5 : (⟨S8192x256, .f32⟩ : BufTy).Contents (Elt Ideal)) (i : Fin 4096) (k : Fin 256) :
    extractStridedSlice S4096x256 ![4096, 0] n5 slices_S8192x256_S4096x256_4096_0 (ix2 i k)
      = n5 (ix2 (⟨i.val + 4096, by omega⟩ : Fin 8192) k) := by
  refine extractStridedSlice_apply _ _ _ _ _ fun a => ?_
  match a with
  | ⟨0, _⟩ => exact Nat.add_comm _ _
  | ⟨1, _⟩ => exact (Nat.zero_add _).symm

/-- The half dot products at row i: the similarity of row i with row i + 4096 (the zero word adds nothing). -/
theorem halfDots_apply (n5 : (⟨S8192x256, .f32⟩ : BufTy).Contents (Elt Ideal)) (i : Fin 4096) :
    halfDots (F := Ideal) n5 (ix1 i)
      = Cert.Spec.sim n5 (⟨i.val, by omega⟩ : Fin 8192) (⟨i.val + 4096, by omega⟩ : Fin 8192) := by
  have hred : S4096x256.Reduces [1] S4096 := by decide
  unfold halfDots Cert.Spec.sim
  rw [hostReduceAdd_apply, Ideal.hostReduceAdd_single _ hred, constant_apply, Ideal.ofBits_zero_f32, zero_add]
  refine Finset.sum_congr rfl fun (k : Fin 256) _ => ?_
  rw [lift_half hred i k, mulf_apply, slice_lo n5 i k, slice_hi n5 i k]

/-- The half dot products laid twice end to end, at row r: the similarity of row r with its partner; in the second
    half by the symmetry of the similarity. -/
theorem pos_apply (n5 : (⟨S8192x256, .f32⟩ : BufTy).Contents (Elt Ideal)) (r : Fin 8192) :
    concatenate S8192 0 [⟨S4096, halfDots (F := Ideal) n5⟩, ⟨S4096, halfDots (F := Ideal) n5⟩]
        concatenates_S4096_S4096_S8192_d0 (ix1 r)
      = Cert.Spec.pos n5 r := by
  unfold Cert.Spec.pos Cert.Spec.partner
  by_cases hr : r.val < 4096
  · rw [concatenate_pair_apply_left (0 : Fin S8192.rank) _ _ concatenates_S4096_S4096_S8192_d0 (ix1 r) rfl
      (ix1 (⟨r.val, hr⟩ : Fin 4096)) (fun b => by match b with | ⟨0, _⟩ => rfl)]
    rw [halfDots_apply]
    exact congrArg₂ (Cert.Spec.sim n5) (Fin.ext rfl) (Fin.ext (by show r.val + 4096 = (r.val + 4096) % 8192; omega))
  · have hr' : r.val - 4096 < 4096 := by have := r.isLt; omega
    rw [concatenate_pair_apply_right (0 : Fin S8192.rank) _ _ concatenates_S4096_S4096_S8192_d0 (ix1 r) rfl rfl
      (ix1 (⟨r.val - 4096, hr'⟩ : Fin 4096)) (fun b hb => absurd (Fin.ext (by have : b.val < 1 := b.isLt; show b.val = 0; omega)) hb)
      (by show r.val - 4096 + 4096 = r.val; omega)]
    rw [halfDots_apply, Cert.Spec.sim_comm]
    exact congrArg₂ (Cert.Spec.sim n5) (Fin.ext (by show r.val - 4096 + 4096 = r.val; omega))
      (Fin.ext (by show r.val - 4096 = (r.val + 4096) % 8192; omega))

/-- The region's result read as a vector, at row r: its entry (r, 0). -/
theorem den_apply (d7 : (⟨S8192x1, .f32⟩ : BufTy).Contents (Elt Ideal)) (r : Fin 8192) :
    shapeCast S8192 d7 shapeCasts_S8192x1_S8192 (ix1 r) = d7 (ix2 r (0 : Fin 1)) := by
  refine shapeCast_apply _ _ _ _ ?_
  rw [Shape.rowMajor_val_two, Shape.rowMajor_val_one]
  show r.val * 1 + 0 = r.val
  omega

/-- At the ideal values the tail is the loss with numerator exponent the similarity of each row with its partner and
    denominator the region's result. -/
theorem tailFn_ideal (n5 : (⟨S8192x256, .f32⟩ : BufTy).Contents (Elt Ideal))
    (d7 : (⟨S8192x1, .f32⟩ : BufTy).Contents (Elt Ideal)) :
    tailFn (F := Ideal) n5 d7 = fun _ => Cert.Spec.lossOf (Cert.Spec.pos n5) (fun r => d7 (ValueIdx.ix2 r 0)) := by
  funext j
  unfold tailFn Cert.Spec.lossOf
  rw [hostDivf_apply, constant_apply, hostReduceAdd_apply, Ideal.hostReduceAdd_total _ (fun b => b.elim0), constant_apply, sum_rows]
  refine congrArg (fun s => Ideal.div (Ideal.ofBits .f32 0x00000000#32 + s) (Ideal.ofBits .f32 0x46000000#32)) ?_
  refine Finset.sum_congr rfl fun (r : Fin 8192) _ => ?_
  show -(Ideal.log (Ideal.div (Ideal.exp (Ideal.div (concatenate S8192 0 [⟨S4096, halfDots (F := Ideal) n5⟩, ⟨S4096, halfDots (F := Ideal) n5⟩] concatenates_S4096_S4096_S8192_d0 (ix1 r)) (broadcastInDim S8192 ![] bcast_S_S8192 (constant (F := Ideal) S_ .f32 0x3F000000#32) (ix1 r)))) (shapeCast S8192 d7 shapeCasts_S8192x1_S8192 (ix1 r)))) = _
  rw [pos_apply, den_apply, broadcastInDim_scalar_apply, constant_apply]

end AtIdeal

end Cert.KernelIdeal.HostSide

end
-- ==== Proof.KLaunch.lean ====
/-
  The launch of the denominator kernel's program: @main is twelve host operations, one kernel region, eighteen host
  operations, and the region's two input windows read ONE array.

  The pipeline's account of the region wants each window's array as a separate resource, so the one buffer behind the
  two input windows is held as two halves, one per window, while the region runs: split at entry, joined again at the
  exit so that the later host operations, which run over all of the core's unscoped buffers, find it whole, and split
  once more where the arrays are handed back. The output's array is held whole throughout. Nothing else of the core's
  unscoped buffers is touched by the region; the later operations write neither array. The final state is read off
  buffer by buffer: every buffer that is no array of the pipeline holds what the later operations compute from the
  contents at the region's exit — the output's array at what the write-backs left, every other buffer as entered.
-/
import proofs.«162119_j65867618451797_1_alg».proof.Proof.KBody
import Idealize.ShloMosaic.Lib.Pipeline.Kit
import proofs.«162119_j65867618451797_1_alg».proof.Proof.KHost
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs unscopedRest)

/-- The shares the proof data holds the three windows' arrays at. -/
theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The pipeline's arrays at contents that agree on the shared array are that array whole and the output's array whole:
    the two input windows hold the two halves of the one buffer behind them. -/
theorem arrays_pts (c : Dev nD) (G : (w : Fin cfg0.W) → Buf (Elt F) ((cfg0.win w).arr.view.loc (c : Thread nD τ)))
    (f6 : Buf (Elt F) ((c : Thread nD τ).loc main_v6)) (f7 : Buf (Elt F) ((c : Thread nD τ).loc main_v7))
    (h0 : G 0 = f6) (h1 : G 1 = f6) (h2 : G 2 = f7) :
    ((dats m 0 c).arrays G : sProp 𝕄) ⊣⊢ iprop((((c : Thread nD τ).loc main_v6) ↦{fullShare} f6) ∗ (((c : Thread nD τ).loc main_v7) ↦{fullShare} f7)) := by
  unfold Dat.arrays
  rw [bigSep_W0]
  rw [(arr_whole0 0).set_eq_univ, (arr_whole0 2).set_eq_univ, share0, share1, share2, h0, h1, h2]
  constructor
  · iintro ⟨Hl, Hr, H7⟩
    isplitl [Hl Hr]
    · iapply (pointsTo_share (PosShare.mem_left_op_right fullShare)).2
      isplitl [Hl] <;> iassumption
    · iexact H7
  · refine (sep_mono (pointsTo_share (PosShare.mem_left_op_right fullShare)).1 .rfl).trans ?_
    iintro ⟨⟨Hl, Hr⟩, H7⟩
    isplitl [Hl]; · iexact Hl
    isplitl [Hr]; · iexact Hr
    iexact H7

/-! ## The core's buffers around the region -/

/-- The core's buffers at the region's exit: the output's array at what the write-backs left, every other as entered. -/
def Wexit (c : Dev nD) : Valuation τ sig (Elt F) := by
  classical
  exact Function.update (V0 m c) (Proc.devRef .tc main_v7) ((dats m 0 c).arrAt 2 cfg0.N)

/-- The core's buffers at the end: after the eighteen host operations that follow the region. -/
def Wfin (c : Dev nD) : Valuation τ sig (Elt F) := StableHlo.after hostOps1 (Wexit m c)

theorem Wexit_v7 (c : Dev nD) : Wexit m c (Proc.devRef .tc main_v7) = (dats m 0 c).arrAt 2 cfg0.N := by
  classical
  unfold Wexit; exact Function.update_self _ _ _

theorem Wexit_of_ne (c : Dev nD) (b : Ref sig .tc) (hb : b ≠ main_v7) : Wexit m c (Proc.devRef .tc b) = V m c b := by
  classical
  unfold Wexit; exact Function.update_of_ne (fun h => hb (Proc.devRef_injective _ h)) _ _

/-- The later operations write neither array of the pipeline. -/
theorem Wfin_v6 (c : Dev nD) : Wfin m c (Proc.devRef .tc main_v6) = V m c main_v6 :=
  (StableHlo.after_of_forall_not_mem (b := Proc.devRef .tc main_v6) hostOps1 (Wexit m c)
    (Cert.KernelIdeal.HostSide.tail_not_written main_v6 (by decide))).trans (Wexit_of_ne m c main_v6 (by decide))
theorem Wfin_v7 (c : Dev nD) : Wfin m c (Proc.devRef .tc main_v7) = (dats m 0 c).arrAt 2 cfg0.N :=
  (StableHlo.after_of_forall_not_mem (b := Proc.devRef .tc main_v7) hostOps1 (Wexit m c)
    (Cert.KernelIdeal.HostSide.tail_not_written main_v7 (by decide))).trans (Wexit_v7 m c)

/-- The two distinct buffers behind the three windows, listed. -/
theorem arrBufs_pts (c : Dev nD) (W : (b : Ref sig .tc) → Buf (Elt F) ((c : Thread nD τ).loc b)) :
    (arrBufs (Ix := Unit) (Name := ℕ) (U := UR sig nD τ) (Lvl := ℕ) spec0 c W : sProp 𝕄)
      = iprop((((c : Thread nD τ).loc main_v6) ↦{fullShare} W main_v6) ∗ (((c : Thread nD τ).loc main_v7) ↦{fullShare} W main_v7)) := by
  unfold arrBufs
  exact bigSep_eq_bigSepL_of_eq [main_v6, main_v7] (by decide) (by decide) _

/-- The bypassing buffers do not see a change of the valuation at the arrays. -/
theorem unscopedRest_congr (c : Dev nD) (W W' : (b : Ref sig .tc) → Buf (Elt F) ((c : Thread nD τ).loc b))
    (h : ∀ b, b ≠ main_v6 → b ≠ main_v7 → W b = W' b) :
    (unscopedRest (Ix := Unit) (Name := ℕ) (U := UR sig nD τ) (Lvl := ℕ) spec0 c W : sProp 𝕄) = unscopedRest spec0 c W' := by
  unfold unscopedRest
  refine bigSep_congr fun b hb => ?_
  have hnot := (Finset.mem_sdiff.mp hb).2
  rw [h b (fun e => hnot (e ▸ (by decide : main_v6 ∈ Finset.univ.image (Pipeline.arrRef spec0))))
    (fun e => hnot (e ▸ (by decide : main_v7 ∈ Finset.univ.image (Pipeline.arrRef spec0))))]

/-- All the unscoped buffers held at a valuation: the two arrays' buffers and the bypassing ones. -/
theorem held_split (c : Dev nD) (W : Valuation τ sig (Elt F)) :
    (StableHlo.held (c : Thread nD τ) (Pipeline.ucRefs τ sig) W : sProp 𝕄)
      = iprop(((((c : Thread nD τ).loc main_v6) ↦{fullShare} W (Proc.devRef .tc main_v6)) ∗ (((c : Thread nD τ).loc main_v7) ↦{fullShare} W (Proc.devRef .tc main_v7)))
          ∗ unscopedRest spec0 c (fun b => W (Proc.devRef .tc b))) := by
  rw [← Pipeline.unscopedBufs_held (Ix := Unit) (Name := ℕ) (U := UR sig nD τ) (Lvl := ℕ) c W,
    Pipeline.unscopedBufs_split₀ cfgs 0 winFacts₀0.arr_unscoped c, arrBufs_pts]

/-! ## @main around the region -/

theorem preOps_fresh : ([hostOps0, hostOps0_1, hostOps0_2] : List (List (HloOp τ sig (Elt F)))).Forall fun ops => ops.Forall fun op => op.fresh = ∅ := by
  simp only [List.Forall]; repeat' constructor
theorem hostOps1_fresh : (hostOps1 : List (HloOp τ sig (Elt F))).Forall fun op => op.fresh = ∅ := by
  simp only [List.Forall]; repeat' constructor

/-- @main is twelve host operations, the region, eighteen host operations: it reduces to the region continued by the
    later operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] ⟨hostOps0_sub, hostOps0_1_sub, hostOps0_2_sub⟩
    preOps_fresh main_chain

/-- At entry the two buffers behind the windows make the pipeline's arrays: the shared one split between the two inputs. -/
theorem hsplit (c : Dev nD) :
    (arrBufs (Ix := Unit) (Name := ℕ) (U := UR sig nD τ) (Lvl := ℕ) spec0 c (V m c) : sProp 𝕄) ⊢ (dats m 0 c).arrays ((dats m 0 c).arrAt · 0) := by
  rw [arrBufs_pts]
  exact (arrays_pts m c _ (V m c main_v6) (V m c main_v7) (A_eq m c 0) (A_eq m c 1) (A_eq m c 2)).2

/-- THE OPERATIONS AFTER THE REGION. From the region's exit — the arrays at their final contents, the bypassing buffers as
    entered — the halves of the shared array are joined, the eighteen operations run over all the unscoped buffers, and
    the arrays, which none of them writes, are handed back as the pipeline's arrays, the shared one split again. -/
theorem htail (𝒱₀ : Variants) (c : Dev nD) (Q' : PUnit → sProp 𝕄) :
    iprop((iprop((dats m 0 c).arrays ((dats m 0 c).arrAt · cfg0.N) ∗ unscopedRest spec0 c (fun b => Wfin m c (Proc.devRef .tc b))) -∗ Q' ⟨⟩)
        ∗ boundary (c : Thread nD τ) ∗ (dats m 0 c).arrays ((dats m 0 c).arrAt · cfg0.N) ∗ unscopedRest spec0 c (V m c))
      ⊢ wp frame (wpE (Pipeline.defs (fun q => Cfg.toPCfg (Val := Elt F) (cfgs q)) defs₀) (Variants.lift 𝒱₀) (c : Thread nD τ) none) Set.univ
          (Pipeline.chain [StableHlo.seq hostOps1]) Q' := by
  have hin6 : (dats m 0 c).arrAt 0 cfg0.N = V m c main_v6 := ((dats m 0 c).arrAt_in 0 rfl _).trans (A_eq m c 0)
  have hin6' : (dats m 0 c).arrAt 1 cfg0.N = V m c main_v6 := ((dats m 0 c).arrAt_in 1 rfl _).trans (A_eq m c 1)
  have hA := arrays_pts m c (fun w => (dats m 0 c).arrAt w cfg0.N) (V m c main_v6) ((dats m 0 c).arrAt 2 cfg0.N) hin6 hin6' rfl
  have hW : (StableHlo.held (c : Thread nD τ) (Pipeline.ucRefs τ sig) (Wexit m c) : sProp 𝕄)
      = iprop(((((c : Thread nD τ).loc main_v6) ↦{fullShare} V m c main_v6) ∗ (((c : Thread nD τ).loc main_v7) ↦{fullShare} (dats m 0 c).arrAt 2 cfg0.N))
          ∗ unscopedRest spec0 c (V m c)) := by
    rw [held_split, Wexit_v7, Wexit_of_ne m c main_v6 (by decide), unscopedRest_congr c _ (V m c) (fun b _ h7 => Wexit_of_ne m c b h7)]
  have hW' : (StableHlo.held (c : Thread nD τ) (Pipeline.ucRefs τ sig) (Wfin m c) : sProp 𝕄)
      = iprop(((((c : Thread nD τ).loc main_v6) ↦{fullShare} V m c main_v6) ∗ (((c : Thread nD τ).loc main_v7) ↦{fullShare} (dats m 0 c).arrAt 2 cfg0.N))
          ∗ unscopedRest spec0 c (fun b => Wfin m c (Proc.devRef .tc b))) := by
    rw [held_split, Wfin_v6, Wfin_v7]
  have hsub1 : ∀ ops ∈ ([hostOps1] : List (List (HloOp τ sig (Elt F)))), ∀ op ∈ ops, op.bufs ⊆ Pipeline.ucRefs τ sig := by
    intro ops hops op hop
    simp only [List.mem_cons, List.mem_nil_iff, or_false] at hops
    subst hops
    exact Pipeline.sub_ucRefs op ((List.forall_iff_forall_mem.mp hostOps1_sub) op hop)
  have hfresh1 : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  have hflat : StableHlo.after (([hostOps1] : List (List (HloOp τ sig (Elt F)))).flatten) (Wexit m c) = Wfin m c := by
    unfold Wfin; rw [List.flatten_cons, List.flatten_nil, List.append_nil]
  refine (sep_mono .rfl (show iprop(boundary (c : Thread nD τ) ∗ (dats m 0 c).arrays ((dats m 0 c).arrAt · cfg0.N) ∗ unscopedRest spec0 c (V m c))
      ⊢ (iprop(boundary (c : Thread nD τ) ∗ StableHlo.held (c : Thread nD τ) (Pipeline.ucRefs τ sig) (Wexit m c)) : sProp 𝕄) from by
    rw [hW]; exact sep_mono .rfl (sep_mono hA.1 .rfl))).trans ?_
  rw [show (Pipeline.chain [StableHlo.seq (hostOps1 (F := F))] : Prog _ PUnit)
      = Pipeline.chain ((([hostOps1] : List (List (HloOp τ sig (Elt F)))).map StableHlo.seq) ++ []) from rfl]
  iintro ⟨Hk, Hb⟩
  iapply (Pipeline.wp_seqs_then (fun q => Cfg.toPCfg (Val := Elt F) (cfgs q)) defs₀ 𝒱₀ c (Pipeline.ucRefs τ sig) [] [hostOps1] hsub1 hfresh1 (Wexit m c)) $$ Hb
  iintro Hb
  rw [Pipeline.chain_nil, wp_pure, hflat, hW']
  imodintro
  iapply Hk
  icases Hb with ⟨-, ⟨Hp, Hr⟩⟩
  isplitl [Hp]
  · iapply hA.2; iexact Hp
  · iexact Hr

/-! ## The run -/

/-- What a final state must hold: every unscoped buffer that is no array of the pipeline at the final valuation. -/
def QFin (r : PUnit × MemSt nD τ sig (Elt F)) : Prop :=
  ∀ c : Dev nD, ∀ b ∈ Pipeline.restRefs sig spec0, r.2.mem ((c : Thread nD τ).loc b) = Wfin m c (Proc.devRef .tc b)

-- the launch theorem's implicit arguments are found by unifying its conclusion with this one, which takes unfolding plain
-- definitions in a metavariable's type
set_option backward.isDefEq.respectTransparency.types false in
/-- At the compiled mesh, for any float values, from any memory with zero counters: every weakly fair execution of @main
    terminates, nothing faulting, and every final state has each bypassing buffer at the final valuation. -/
theorem run_main : θ_run defs (onTc (τ := τ) (main (F := F))) ⟨m, fun _ => 0, ρ⟩ (QFin m) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) spec0 c (V m c))
    (Z' := fun c => unscopedRest (Ix := Unit) (Name := ℕ) (U := UR sig nD τ) (Lvl := ℕ) spec0 c (fun b => Wfin m c (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m Variants.none c Q')
    (QY := fun c s => ∀ b ∈ Pipeline.restRefs sig spec0, s.mem ((c : Thread nD τ).loc b) = Wfin m c (Proc.devRef .tc b))
    (hY := fun c s' => by
      iintro ⟨-, HU, HSI⟩
      unfold unscopedRest
      imodintro
      iapply (pointsTo_read_all (Pipeline.restRefs sig spec0) (fun b => (c : Thread nD τ).loc b) (fun b => Wfin m c (Proc.devRef .tc b)) s')
      isplitl [HU] <;> iassumption)
    (hQ := fun s h c => (h c).2.2)

/-! ## What the run gives -/

open Cert.KernelIdeal.HostSide in
/-- The arguments end as launched: no host operation writes them and the region does not stage them. -/
theorem Wfin_arg0 (c : Dev nD) : Wfin m c (Proc.devRef .tc main_arg0) = m ((c : Thread nD τ).loc main_arg0) :=
  (tail_arg0 (Wexit m c)).trans ((Wexit_of_ne m c main_arg0 (by decide)).trans (pre_arg0 (fun b => m (c, b))))
open Cert.KernelIdeal.HostSide in
theorem Wfin_arg1 (c : Dev nD) : Wfin m c (Proc.devRef .tc main_arg1) = m ((c : Thread nD τ).loc main_arg1) :=
  (tail_arg1 (Wexit m c)).trans ((Wexit_of_ne m c main_arg1 (by decide)).trans (pre_arg1 (fun b => m (c, b))))

open Cert.KernelIdeal.HostSide in
/-- The rows the later operations read are the normalised rows of the arguments, -/
theorem V_v5 (c : Dev nD) : V m c main_v5 = nK (m ((c : Thread nD τ).loc main_arg0)) (m ((c : Thread nD τ).loc main_arg1)) :=
  pre_v5 (fun b => m (c, b))
open Cert.KernelIdeal.HostSide in
/-- the array the region reads is their conversion to the narrower format, -/
theorem V_v6 (c : Dev nD) : V m c main_v6 = truncf .bf16 (nK (m ((c : Thread nD τ).loc main_arg0)) (m ((c : Thread nD τ).loc main_arg1))) bitsLt_bf16_f32 :=
  pre_v6 (fun b => m (c, b))
open Cert.KernelIdeal.HostSide in
/-- and the result is the later operations' function of those rows and of what the region left in its output array. -/
theorem Wfin_v21 (c : Dev nD) :
    Wfin m c (Proc.devRef .tc main_v21)
      = tailFn (nK (m ((c : Thread nD τ).loc main_arg0)) (m ((c : Thread nD τ).loc main_arg1))) ((dats m 0 c).arrAt 2 cfg0.N) := by
  unfold Wfin
  rw [tail_v21, Wexit_v7, Wexit_of_ne m c main_v5 (by decide), V_v5]

/-- THE FRAME: every weakly fair execution of @main terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_arg0 (by decide)).trans (Wfin_arg0 m c), (h c main_arg1 (by decide)).trans (Wfin_arg1 m c)⟩)
    (run_main m ρ)

open Cert.KernelIdeal.HostSide in
/-- THE RUN WITH ITS RESULT NAMED: as the frame, and the result buffer ends at the later operations' function of the
    normalised rows and of the region's final output array. -/
theorem run_result : θ_run defs (onTc (τ := τ) (main (F := F))) ⟨m, fun _ => 0, ρ⟩ (fun r => ∀ c : Dev nD,
      r.2.mem ((c.tc : Thread nD τ).loc main_v21)
        = tailFn (nK (m ((c : Thread nD τ).loc main_arg0)) (m ((c : Thread nD τ).loc main_arg1))) ((dats m 0 c).arrAt 2 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_v21 (by decide)).trans (Wfin_v21 m c),
      (h c main_arg0 (by decide)).trans (Wfin_arg0 m c), (h c main_arg1 (by decide)).trans (Wfin_arg1 m c)⟩)
    (run_main m ρ)

end Cert.KernelIdeal.Hand

end
-- ==== Proof.KPay.lean ====
/- The two values the kernel body stores into its row-sum accumulator, read index by index at the
   exact (extended-real) reading of the float operations.

   * The first store, made at the first column tile, is the zero column.
   * The second store adds to the column read back, at row r of the tile, the sum over the tile's
     1024 columns c of exp (2 · m(r, c)), where m(r, c) is 0 when the global row index
     (row tile · 1024 + r) equals the global column index (column tile · 1024 + c), and the dot
     product over the 256 features of the row block's row r with the column block's row c otherwise. -/
import proofs.«162119_j65867618451797_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.KernelIdeal.PayValue

open Cert.KernelIdeal Cert.KernelIdeal.Gen Idealize.ShloMosaic Idealize.ShloMosaic.ValueIdx

/-! ## Constants -/

/-- The word 0x40000000 (sign 0, exponent 128, fraction 0) denotes 2 = 2^23 · 2^(128 − 127 − 23). -/
theorem ofBits_two : Ideal.ofBits .f32 0x40000000#32 = 2 := by
  simp [Ideal.ofBits, Ideal.ieee, -EReal.coe_mul]; norm_num
  rfl

/-! ## The layout steps, read at an index -/

/-- A length-a vector viewed as an a × 1 column reads, at (i, u), the vector at i: both have
    row-major position i, since i · 1 + 0 = i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the columns of a 1024 × 1024 array, read at row r: the sum over c of the entry (r, c). -/
theorem laneSum_apply (v : FVec Ideal S1024x1024 .f32) (r : Fin 1024) :
    multiReduction (F := Ideal) .add [1] S1024 v 0x00000000#32 reduces_S1024x1024_S1024 (.inl rfl) rfl (ix1 r)
      = ∑ c : Fin 1024, v (ix2 r c) := by
  refine (Ideal.multiReduction_add_single v 0x00000000#32 reduces_S1024x1024_S1024 (.inl rfl) rfl (ix1 r)).trans ?_
  refine Finset.sum_congr rfl fun c _ => congrArg v ?_
  funext a
  match a with
  | ⟨0, _⟩ => rfl
  | ⟨1, _⟩ => rfl

/-! ## The product of the row block with the transposed column block

The contraction of a 1024 × 256 array with a 256 × 1024 one: the left operand is read at
(output row, contraction coordinate), the right one at (contraction coordinate, output column). -/

/-- Axis 0 of the left operand's index is the output row. -/
theorem lhs_mm_0 (j : S1024x1024.Idx) (q : dot_S1024x256_S256x1024_S1024x1024_1_0_0_1_n_n.contr.Idx) :
    (dot_S1024x256_S256x1024_S1024x1024_1_0_0_1_n_n.lhsIdx j q 0).val = (j 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
/-- Axis 1 of the left operand's index is the contraction coordinate. -/
theorem lhs_mm_1 (j : S1024x1024.Idx) (q : dot_S1024x256_S256x1024_S1024x1024_1_0_0_1_n_n.contr.Idx) :
    (dot_S1024x256_S256x1024_S1024x1024_1_0_0_1_n_n.lhsIdx j q 1).val = (q ⟨0, by decide⟩).val :=
  dot_S1024x256_S256x1024_S1024x1024_1_0_0_1_n_n.lhsIdx_val_of_single rfl j q
/-- Axis 0 of the right operand's index is the contraction coordinate. -/
theorem rhs_mm_0 (j : S1024x1024.Idx) (q : dot_S1024x256_S256x1024_S1024x1024_1_0_0_1_n_n.contr.Idx) :
    (dot_S1024x256_S256x1024_S1024x1024_1_0_0_1_n_n.rhsIdx j q 0).val = (q ⟨0, by decide⟩).val :=
  dot_S1024x256_S256x1024_S1024x1024_1_0_0_1_n_n.rhsIdx_val_of_single rfl j q
/-- Axis 1 of the right operand's index is the output column. -/
theorem rhs_mm_1 (j : S1024x1024.Idx) (q : dot_S1024x256_S256x1024_S1024x1024_1_0_0_1_n_n.contr.Idx) :
    (dot_S1024x256_S256x1024_S1024x1024_1_0_0_1_n_n.rhsIdx j q 1).val = (j 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The matrix product accumulated into the zero array, read at (r, c): Σ_k a(r, k) · b(k, c),
    the contraction index re-indexed by its one coordinate. -/
theorem matmul_ix2_apply (a : FVec Ideal S1024x256 .bf16) (b : FVec Ideal S256x1024 .bf16) (r c : Fin 1024) :
    matmul dot_S1024x256_S256x1024_S1024x1024_1_0_0_1_n_n none a b (constant (F := Ideal) S1024x1024 .f32 0x00000000#32) (ix2 r c)
      = ∑ k : Fin 256, a (ix2 r k) * b (ix2 k c) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r c) ((contrEquiv1 dot_S1024x256_S256x1024_S1024x1024_1_0_0_1_n_n 256 rfl rfl).symm k) = ix2 r k := funext fun x => Fin.ext (by
    match x with
    | ⟨0, _⟩ => exact lhs_mm_0 _ _
    | ⟨1, _⟩ => exact (lhs_mm_1 _ _).trans hk)
  have er : dot_S1024x256_S256x1024_S1024x1024_1_0_0_1_n_n.rhsIdx (ix2 r c) ((contrEquiv1 dot_S1024x256_S256x1024_S1024x1024_1_0_0_1_n_n 256 rfl rfl).symm k) = ix2 k c := funext fun x => Fin.ext (by
    match x with
    | ⟨0, _⟩ => exact (rhs_mm_0 _ _).trans hk
    | ⟨1, _⟩ => exact rhs_mm_1 _ _)
  rw [el, er]

/-! ## The diagonal mask -/

/-- The two global indices, computed in 32-bit words, are equal exactly when they are equal as
    naturals: each is below 8 · 1024 = 8192, far from the wrap at 2^32. -/
theorem word_index_eq_iff (a b r c : ℕ) (ha : a < 8) (hb : b < 8) (hr : r < 1024) (hc : c < 1024) :
    BitVec.ofNat 32 a * 1024#32 + BitVec.ofNat 32 r = BitVec.ofNat 32 b * 1024#32 + BitVec.ofNat 32 c
      ↔ a * 1024 + r = b * 1024 + c := by
  rw [← BitVec.toNat_inj]
  simp only [BitVec.toNat_add, BitVec.toNat_mul, BitVec.toNat_ofNat]
  omega

/-- A one-bit condition that is set exactly when p holds selects as the if on p. -/
theorem select_of_iff {α : Type} {b : BitVec 1} {p : Prop} [Decidable p] (h : b = 1#1 ↔ p) (x y : α) :
    Scalar.select b x y = if p then x else y := by
  by_cases hp : p
  · rw [if_pos hp, h.2 hp]; exact select_one x y
  · rw [if_neg hp, eq_zero_of_ne_one (mt h.1 hp)]; exact select_zero x y

/-- The mask at (r, c) of the tile with coordinates (i 0, i 1): the row counter plus the row offset
    i 0 · 1024 is compared with the column counter plus the column offset i 1 · 1024; the bit is set
    exactly on the global diagonal. -/
theorem mask_apply (i : grid0.Coords) (r c : Fin 1024) :
    cmpi .eq
        (addi (broadcast S1024x1024 (Scalar.muli (BitVec.ofNat 32 (i 0).val) 1024#32))
          (iota .tc S1024x1024 32 [0] iota_S1024x1024_d0_w32))
        (addi (broadcast S1024x1024 (Scalar.muli (BitVec.ofNat 32 (i 1).val) 1024#32))
          (iota .tc S1024x1024 32 [1] iota_S1024x1024_d1_w32))
        (ix2 r c) = 1#1
      ↔ (i 0).val * 1024 + r.val = (i 1).val * 1024 + c.val := by
  show IntOp.cmpi .eq
      (BitVec.ofNat 32 (i 0).val * 1024#32 + iota .tc S1024x1024 32 [0] iota_S1024x1024_d0_w32 (ix2 r c))
      (BitVec.ofNat 32 (i 1).val * 1024#32 + iota .tc S1024x1024 32 [1] iota_S1024x1024_d1_w32 (ix2 r c)) = 1#1 ↔ _
  rw [iota_single_apply, iota_single_apply, StableHlo.Predicate.cmpi_eq_iff]
  exact word_index_eq_iff _ _ _ _ (i 0).isLt (i 1).isLt r.isLt c.isLt

/-! ## The two stored values -/

/-- The first store writes the zero column. -/
theorem pay1_apply (j : S1024x1.Idx) : k0_pay1 (F := Ideal) j = 0 := by
  unfold k0_pay1
  rw [shapeCast_self]
  exact Ideal.ofBits_zero_f32

/-- The second store at row r of the tile: the column read back plus the row's sum, over the tile's
    columns, of exp (2 · masked product). -/
theorem pay2_apply (i : grid0.Coords) (x0 x1 : Vec Ideal S1024x256 .bf16) (s : Vec Ideal S1024x1 .f32) (r : Fin 1024) :
    k0_pay2 (F := Ideal) i x0 x1 s (ix2 r 0)
      = s (ix2 r 0) + ∑ c : Fin 1024, Ideal.exp ((if (i 0).val * 1024 + r.val = (i 1).val * 1024 + c.val then 0
          else ∑ k : Fin 256, x0 (ix2 r k) * x1 (ix2 c k)) * 2) := by
  unfold k0_pay2
  -- the final cast keeps the shape, and so do the casts of the two loaded blocks
  simp only [shapeCast_self]
  -- the sum with the column read back, then the column view of the row sums, then the row sum itself
  refine (addf_apply _ _ _).trans ?_
  refine congrArg (s (ix2 r 0) + ·) ?_
  refine (shapeCast_a_a1_apply _ _ r 0).trans ?_
  refine (laneSum_apply _ r).trans ?_
  refine Finset.sum_congr rfl fun c _ => ?_
  -- pointwise at (r, c): exp of (masked product · 2)
  refine congrArg Ideal.exp ?_
  refine (mulf_apply _ _ _).trans ?_
  refine congrArg₂ (· * ·) ?_ ofBits_two
  refine (select_apply _ _ _ _).trans ?_
  refine (select_of_iff (mask_apply i r c) _ _).trans ?_
  refine if_congr Iff.rfl Ideal.ofBits_zero_f32 ?_
  -- off the diagonal: the product with the transposed column block is Σ_k x0(r, k) · x1(c, k)
  refine (matmul_ix2_apply x0 _ r c).trans ?_
  exact Finset.sum_congr rfl fun k _ => congrArg (x0 (ix2 r k) * ·) (transpose_ix2_apply x1 _ k c)

end Cert.KernelIdeal.PayValue

end
-- ==== Proof.KAcc.lean ====
/-
  What the denominator kernel's output array holds after the run, row by row.

  Point t = 8·i + j of the 8 × 8 grid reads row tile i (rows 1024·i … 1024·i + 1023) and column tile j of the same array
  of rows n. Write r = 1024·i + a. The running row sums after point t, read at row a of the tile, are
      Σ_{j' ≤ j} Σ_{b < 1024} term n r (1024·j' + b),
  by induction on the point: a first column tile starts from the zero column, any other adds to what the point before
  left. The output block of row tile i is written back once, after point 8·i + 7, where the sum runs over all eight column
  tiles; regrouping Σ_{j' < 8} Σ_{b < 1024} f (1024·j' + b) = Σ_{c < 8192} f c gives the denominator of row r.
  Extended-real addition is commutative and associative, so no finiteness is asked.
-/
import proofs.«162119_j65867618451797_1_alg».proof.Proof.KSched
import proofs.«162119_j65867618451797_1_alg».proof.Proof.KPay
import proofs.«162119_j65867618451797_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.AccValue

open Cert.KernelIdeal Cert.KernelIdeal.Gen Cert.KernelIdeal.Hand Cert.KernelIdeal.PayValue
open Idealize.ShloMosaic Idealize.ShloMosaic.TcCoe Idealize.ShloMosaic.ValueIdx
open Idealize.ShloMosaic.Pipeline (Dat)

variable (m : (ℓ : Loc nD τ sig) → Buf (Elt Ideal) ℓ)

/-- The rows the region reads: the array behind windows 0 and 1 as the region finds it. -/
abbrev rowsIn (c : Dev nD) : Cert.Spec.Rows := Cert.KernelIdeal.Hand.V m c main_v6

/-! ## Sums over column tiles -/

/-- The summand of row r at column position x, as a function of every natural (zero past the last column). -/
def termAt (n : Cert.Spec.Rows) (r : Fin 8192) (x : ℕ) : EReal :=
  if h : x < 8192 then Cert.Spec.term n r ⟨x, h⟩ else 0

/-- The part of row r's denominator that column tile j contributes. -/
def tileSum (n : Cert.Spec.Rows) (r : Fin 8192) (j : ℕ) : EReal :=
  ∑ b : Fin 1024, termAt n r (1024 * j + b.val)

/-- J consecutive tiles of 1024 positions are the first 1024·J positions. -/
theorem sum_tiles (g : ℕ → EReal) : ∀ J : ℕ,
    ∑ j ∈ Finset.range J, ∑ b ∈ Finset.range 1024, g (1024 * j + b) = ∑ x ∈ Finset.range (1024 * J), g x
  | 0 => by simp
  | J + 1 => by
    rw [Finset.sum_range_succ, sum_tiles g J, Nat.mul_succ, Finset.sum_range_add]

/-- All eight column tiles together give the whole denominator. -/
theorem sum_tileSum (n : Cert.Spec.Rows) (r : Fin 8192) :
    ∑ j ∈ Finset.range 8, tileSum n r j = Cert.Spec.den n r := by
  unfold tileSum Cert.Spec.den
  have e : ∀ j : ℕ, ∑ b : Fin 1024, termAt n r (1024 * j + b.val) = ∑ b ∈ Finset.range 1024, termAt n r (1024 * j + b) :=
    fun j => Fin.sum_univ_eq_sum_range (fun b => termAt n r (1024 * j + b)) 1024
  simp only [e]
  rw [sum_tiles (termAt n r) 8, ← Fin.sum_univ_eq_sum_range (termAt n r) (1024 * 8)]
  exact Finset.sum_congr rfl fun x _ => dif_pos x.isLt

/-! ## The index maps over the grid -/

/-- Point t = 8·i + j: windows 0 and 2 sit at row tile i = t / 8, window 1 at column tile j = t % 8, and the body's two
    grid coordinates are i and j. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ ((grid0.coords t) 0).val = t.val / 8 ∧ ((grid0.coords t) 1).val = t.val % 8 :=
  (by decide +kernel : ∀ t : Fin grid0.N, _)

/-! ## The blocks the body reads -/

/-- Window 0's block at point t is row tile t / 8 of the rows. -/
theorem iblk0_apply (c : Dev nD) (t : Fin cfg0.N) (a : Fin 1024) (k : Fin 256) (r : Fin 8192)
    (hr : r.val = 1024 * (t.val / 8) + a.val) :
    (iblk m c 0 t : Vec Ideal S1024x256 .bf16) (ix2 a k) = rowsIn m c (ix2 r k) := by
  obtain ⟨e0, e1, -⟩ := idx_facts t
  unfold iblk
  rw [View.read_apply]
  show V m c main_v6 _ = V m c main_v6 _
  congr 1
  funext d
  apply Fin.ext
  match d with
  | ⟨0, _⟩ => show win0_0.index t (0 : Fin 2) * 1024 + 1 * a.val = r.val; rw [e0, hr]; omega
  | ⟨1, _⟩ => show win0_0.index t (1 : Fin 2) * 256 + 1 * k.val = k.val; rw [e1]; omega

/-- Window 1's block at point t is row tile t % 8 of the same rows: the columns of the similarity tile. -/
theorem iblk1_apply (c : Dev nD) (t : Fin cfg0.N) (b : Fin 1024) (k : Fin 256) (q : Fin 8192)
    (hq : q.val = 1024 * (t.val % 8) + b.val) :
    (iblk m c 1 t : Vec Ideal S1024x256 .bf16) (ix2 b k) = rowsIn m c (ix2 q k) := by
  obtain ⟨-, -, e2, e3, -⟩ := idx_facts t
  unfold iblk
  rw [View.read_apply]
  show V m c main_v6 _ = V m c main_v6 _
  congr 1
  funext d
  apply Fin.ext
  match d with
  | ⟨0, _⟩ => show win0_1.index t (0 : Fin 2) * 1024 + 1 * b.val = q.val; rw [e2, hq]; omega
  | ⟨1, _⟩ => show win0_1.index t (1 : Fin 2) * 256 + 1 * k.val = k.val; rw [e3]; omega

/-! ## One point's update, read at a row -/

/-- The update at point t adds, at row a of the tile, the contribution of column tile t % 8 to row r = 1024·(t / 8) + a:
    the body's diagonal test compares the row's and the column's positions in the whole array, and its inner sum over the
    256 features is the similarity of the two rows. -/
theorem step_apply (c : Dev nD) (t : Fin cfg0.N) (s : Vec Ideal S1024x1 .f32) (a : Fin 1024) (r : Fin 8192)
    (hr : r.val = 1024 * (t.val / 8) + a.val) :
    stepAt m c t s (ix2 a 0) = s (ix2 a 0) + tileSum (rowsIn m c) r (t.val % 8) := by
  obtain ⟨-, -, -, -, -, -, e6, e7⟩ := idx_facts t
  show k0_pay2 (F := Ideal) (grid0.coords t) (iblk m c 0 t) (iblk m c 1 t) s (ix2 a 0) = _
  rw [pay2_apply]
  congr 1
  unfold tileSum
  refine Finset.sum_congr rfl fun b _ => ?_
  have hb : 1024 * (t.val % 8) + b.val < 8192 := by have := b.isLt; omega
  unfold termAt
  rw [dif_pos hb]
  unfold Cert.Spec.term
  congr 2
  refine if_congr ?_ rfl ?_
  · rw [e6, e7, Fin.ext_iff, hr]
    show _ ↔ 1024 * (t.val / 8) + a.val = 1024 * (t.val % 8) + b.val
    omega
  · unfold Cert.Spec.sim
    exact Finset.sum_congr rfl fun k _ => by
      rw [iblk0_apply m c t a k r hr, iblk1_apply m c t b k ⟨1024 * (t.val % 8) + b.val, hb⟩ rfl]

/-! ## The running row sums after every point -/

/-- After point n = 8·i + j the running sums at row a of the tile hold the contributions of column tiles 0 … j to row
    1024·i + a. -/
theorem accAt_apply (c : Dev nD) : ∀ (n : ℕ) (hn : n < cfg0.N) (a : Fin 1024) (r : Fin 8192),
    r.val = 1024 * (n / 8) + a.val →
    accAt m c n hn (ix2 a 0) = ∑ j ∈ Finset.range (n % 8 + 1), tileSum (rowsIn m c) r j
  | 0, hn, a, r, hr => by
    rw [accAt_reset m c ⟨0, hn⟩ rfl, step_apply m c ⟨0, hn⟩ _ a r hr, pay1_apply, zero_add]
    show _ = ∑ j ∈ Finset.range 1, _
    rw [Finset.sum_range_one]
    rfl
  | n + 1, hn, a, r, hr => by
    by_cases h : (n + 1) % 8 = 0
    · rw [accAt_reset m c ⟨n + 1, hn⟩ h, step_apply m c ⟨n + 1, hn⟩ _ a r hr, pay1_apply, zero_add]
      show tileSum _ r ((n + 1) % 8) = _
      rw [h, Finset.sum_range_one]
    · rw [accAt_step m c ⟨n + 1, hn⟩ h, step_apply m c ⟨n + 1, hn⟩ _ a r hr]
      show accAt m c n _ (ix2 a 0) + tileSum _ r ((n + 1) % 8) = _
      rw [accAt_apply c n (Nat.lt_of_succ_lt hn) a r (by rw [hr]; omega),
        show (n + 1) % 8 = n % 8 + 1 from by omega, Finset.sum_range_succ _ (n % 8 + 1)]

/-! ## From the blocks written back to the array -/

/-- The output array after the run: the denominator of every row. -/
abbrev denArr (c : Dev nD) : Buf (Elt Ideal) ((c : Thread nD τ).loc main_v7) :=
  fun i => Cert.Spec.den (rowsIn m c) (i 0)

/-- What a writing point t (t % 8 = 7) writes back is its block of the denominators: there the running sums cover all
    eight column tiles. -/
theorem flushed_eq (c : Dev nD) (t : Fin cfg0.N) (hf : (cfg0.win 2).flush t = true) :
    (dats m 0 c).flushed 2 t = ((cfg0.win 2).blk t).view.read (Elt Ideal) (denArr m c) := by
  have h7 : t.val % 8 = 7 := (flush0_2 t).mp hf
  obtain ⟨-, -, -, -, e4, e5, -⟩ := idx_facts t
  show (cfg0.win 2).cut (grid0.coords t) ((dats m 0 c).after 2 t) = _
  rw [after2]
  funext y
  obtain ⟨a, z, rfl⟩ : ∃ (a : Fin 1024) (z : Fin 1), y = ix2 a z := ⟨y 0, y 1, eq_ix2 y⟩
  obtain rfl : z = 0 := Subsingleton.elim _ _
  rw [View.read_apply]
  have hlt : 1024 * (t.val / 8) + a.val < 8192 := by
    have := a.isLt; have := t.isLt; have hN : cfg0.N = 64 := N_0; omega
  show accAt m c t.val t.isLt (ix2 a 0) = Cert.Spec.den (rowsIn m c) (((cfg0.win 2).blk t).view.emb (ix2 a 0) 0)
  have hrow : ((cfg0.win 2).blk t).view.emb (ix2 a 0) 0 = (⟨1024 * (t.val / 8) + a.val, hlt⟩ : Fin 8192) := by
    apply Fin.ext
    show win0_2.index t (0 : Fin 2) * 1024 + 1 * a.val = 1024 * (t.val / 8) + a.val
    rw [e4]; omega
  rw [hrow, accAt_apply m c t.val t.isLt a ⟨1024 * (t.val / 8) + a.val, hlt⟩ rfl, h7]
  exact sum_tileSum _ _

/-- An index of the output array is in point t's block iff each coordinate is in the block's range on its axis. -/
theorem mem_blk (t : Fin cfg0.N) (i : S8192x1.Idx) :
    i ∈ ((cfg0.win 2).blk t).view.set ↔ ∀ d : Fin 2, win0_2.index t d * S1024x1.size d ≤ (i d).val ∧ (i d).val < win0_2.index t d * S1024x1.size d + S1024x1.size d := by
  show i ∈ ((View.whole main_v7).slice (win0_2.rect t)).set ↔ _
  rw [View.set_slice_whole, Rect.mem_set_unit]
  exact Iff.rfl

/-- Row r is covered by the writing point of its row tile, 8·(r / 1024) + 7. -/
theorem cover (i : S8192x1.Idx) : ∃ t : Fin cfg0.N, (cfg0.win 2).flush t = true ∧ i ∈ ((cfg0.win 2).blk t).view.set := by
  have hN : cfg0.N = 64 := N_0
  have hi0 : (i 0).val < 8192 := (i 0).isLt
  have hi1 : (i 1).val < 1 := (i 1).isLt
  have ht : 8 * ((i 0).val / 1024) + 7 < cfg0.N := by rw [hN]; omega
  refine ⟨⟨8 * ((i 0).val / 1024) + 7, ht⟩, (flush0_2 _).mpr (by show (8 * ((i 0).val / 1024) + 7) % 8 = 7; omega), ?_⟩
  obtain ⟨-, -, -, -, e4, e5, -⟩ := idx_facts ⟨8 * ((i 0).val / 1024) + 7, ht⟩
  rw [mem_blk]
  intro d
  match d with
  | ⟨0, _⟩ =>
    show win0_2.index _ (0 : Fin 2) * 1024 ≤ (i 0).val ∧ (i 0).val < win0_2.index _ (0 : Fin 2) * 1024 + 1024
    rw [e4]; show (8 * ((i 0).val / 1024) + 7) / 8 * 1024 ≤ (i 0).val ∧ (i 0).val < (8 * ((i 0).val / 1024) + 7) / 8 * 1024 + 1024
    omega
  | ⟨1, _⟩ =>
    show win0_2.index _ (1 : Fin 2) * 1 ≤ (i 1).val ∧ (i 1).val < win0_2.index _ (1 : Fin 2) * 1 + 1
    rw [e5]; omega

/-- The output array ends holding the denominators. -/
theorem final_arr (c : Dev nD) : (dats m 0 c).arrAt 2 cfg0.N = denArr m c :=
  (dats m 0 c).arrAt_eq_of_cover 2 (denArr m c) (flushed_eq m c) cover

/-- Row by row: the output array at row r is the denominator of row r of the rows the region read. -/
theorem final_den (c : Dev nD) (r : Fin 8192) :
    (Cert.KernelIdeal.Hand.dats (F := Ideal) m 0 c).arrAt 2 cfg0.N (ValueIdx.ix2 r 0) = Cert.Spec.den (rowsIn m c) r := by
  rw [final_arr]
  rfl

end Cert.KernelIdeal.AccValue

end
-- ==== Proof.RefValue.lean ====
/-
  The reference's result as the shared mathematics: the value the reference's run names is the specification's loss of
  the normalised rows the reference computes.

  The normalised rows (the reference's value %5) are carried as one opaque function `nR`; every later stage is read at
  explicit coordinates as a function of it:
    * the similarity matrix at (r, c) is the dot product of rows r and c (the second operand is the transposed rows);
    * the mask 1 − [r = c] turns the product "similarity × mask" into the similarity off the diagonal and 0 on it, the
      division by the word of 0.5 doubles, so each summand of a row's sum is the specification's term;
    * each diagonal is a point gather whose start indices are (i, 4096 + i) and (4096 + i, i): small non-negative words,
      so the "negative index" selects keep them and the clamp leaves them; concatenated, row r reads the similarity of
      r with its partner;
    * the last operations are the specification's loss literally, the sum over the rank-1 index set re-indexed by its
      coordinate.
-/
import proofs.«162119_j65867618451797_1_alg».proof.Proof.Gen.ReferenceIdeal.Read
import proofs.«162119_j65867618451797_1_alg».proof.Proof.Spec
import Idealize.ShloMosaic.Lib.Pipeline.Value
import Idealize.ShloMosaic.Lib.ValueIdx
import Idealize.ShloMosaic.Lib.ValueIdxRank1
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The reference's gather dimension numbers: a point gather, both operand axes collapsed, the start index a pair. -/
abbrev gD : GatherDims S8192x8192 S4096x2 S4096 := gather_S8192x8192_S4096x2_S4096_n_01_n_n_01_1_11

/-- The point gather at result index `i`: the operand at the pair of start-index components of row `i`, each read
    signed and clamped into the operand's range. -/
theorem gather_point {α : Type} (x : S8192x8192.Idx → α) (idx : IVec S4096x2 32) (i : Fin 4096) :
    Host.gather gD x idx (ix1 i)
      = x (ix2 (⟨min (idx (ix2 i (0 : Fin 2))).toInt.toNat 8191, by omega⟩ : Fin 8192)
               (⟨min (idx (ix2 i (1 : Fin 2))).toInt.toNat 8191, by omega⟩ : Fin 8192)) := by
  unfold Host.gather
  congr 1
  funext a
  refine Fin.ext ?_
  match a with
  | ⟨0, _⟩ =>
    show gD.start (ix1 i) idx 0 + gD.batchCoord (ix1 i) 0 + gD.offCoord (ix1 i) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gD.startIndexMap by decide)]
    have hsi : gD.siIdx (ix1 i) ⟨List.idxOf (0 : Fin 2) gD.startIndexMap,
        List.idxOf_lt_length_iff.2 (by decide)⟩ = ix2 i (0 : Fin 2) := by
      funext b; refine Fin.ext ?_
      match b with
      | ⟨0, _⟩ => rfl
      | ⟨1, _⟩ => rfl
    rw [hsi]
    rfl
  | ⟨1, _⟩ =>
    show gD.start (ix1 i) idx 1 + gD.batchCoord (ix1 i) 1 + gD.offCoord (ix1 i) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gD.startIndexMap by decide)]
    have hsi : gD.siIdx (ix1 i) ⟨List.idxOf (1 : Fin 2) gD.startIndexMap,
        List.idxOf_lt_length_iff.2 (by decide)⟩ = ix2 i (1 : Fin 2) := by
      funext b; refine Fin.ext ?_
      match b with
      | ⟨0, _⟩ => rfl
      | ⟨1, _⟩ => rfl
    rw [hsi]
    rfl

variable {F : FTy → Type} [FloatOps F]

/-! ## Words: the two index columns of the diagonals' gathers -/

/-- A word below 2³¹ is not below zero, read signed. -/
theorem slt_zero_of_small {a : BitVec 32} (ha : a.toNat < 2 ^ 31) : IntOp.cmpi .slt a 0#32 = 0#1 := by
  refine eq_zero_of_ne_one fun h => ?_
  have := (Predicate.slt_iff_toNat ha (by decide)).mp h
  simp at this

/-- The word of a row number below 4096 reads back as the number. -/
theorem toNat_row (i : Fin 4096) : (BitVec.ofNat 32 i.val).toNat = i.val := by
  rw [BitVec.toNat_ofNat]; have := i.isLt; omega

/-- The word 4096 plus a row number below 4096 reads back as the sum: no wrap. -/
theorem toNat_shift (i : Fin 4096) : (4096#32 + BitVec.ofNat 32 i.val).toNat = 4096 + i.val := by
  rw [BitVec.toNat_add, BitVec.toNat_ofNat]; have := i.isLt; simp; omega

/-- Read signed and clamped into the operand's range, the row word is the row number. -/
theorem clamp_row (i : Fin 4096) : min (BitVec.ofNat 32 i.val).toInt.toNat 8191 = i.val := by
  rw [Predicate.toInt_eq_toNat_of_lt (by rw [toNat_row]; have := i.isLt; omega), toNat_row]
  have := i.isLt; simp; omega

/-- Read signed and clamped into the operand's range, the shifted word is the row number plus 4096. -/
theorem clamp_shift (i : Fin 4096) : min (4096#32 + BitVec.ofNat 32 i.val).toInt.toNat 8191 = 4096 + i.val := by
  rw [Predicate.toInt_eq_toNat_of_lt (by rw [toNat_shift]; have := i.isLt; omega), toNat_shift]
  have := i.isLt; simp; omega

/-! ## The start indices of the two gathers, column by column

Each diagonal's start indices are a row column and a column column of words; the "negative index" branch of each
select is never taken, the words being small and non-negative. -/

/-- The upper diagonal's row column: the row number. -/
theorem call1_row (i : Fin 4096) : val_main_call1_v8 (F := F) (ix1 i) = BitVec.ofNat 32 i.val := by
  rw [val_main_call1_v8_apply, val_main_call1_v5_apply, val_main_call1_v4_apply, val_main_call1_c_0_apply,
    val_main_call1_v0_apply]
  show Scalar.select (IntOp.cmpi .slt (BitVec.ofNat 32 i.val) 0#32) _ (BitVec.ofNat 32 i.val) = _
  rw [slt_zero_of_small (by rw [toNat_row]; have := i.isLt; omega)]
  exact select_zero _ _

/-- The upper diagonal's column column: the row number plus 4096. -/
theorem call1_col (i : Fin 4096) : val_main_call1_v13 (F := F) (ix1 i) = 4096#32 + BitVec.ofNat 32 i.val := by
  have h3 : val_main_call1_v3 (F := F) (ix1 i) = 4096#32 + BitVec.ofNat 32 i.val := by
    rw [val_main_call1_v3_apply, val_main_call1_v2_apply, val_main_call1_c_apply, val_main_call1_v1_apply]; rfl
  rw [val_main_call1_v13_apply, val_main_call1_v10_apply, val_main_call1_v9_apply, val_main_call1_c_2_apply, h3]
  rw [slt_zero_of_small (by rw [toNat_shift]; have := i.isLt; omega)]
  exact select_zero _ _

/-- The lower diagonal's row column: the row number plus 4096. -/
theorem call2_row (i : Fin 4096) : val_main_call2_v8 (F := F) (ix1 i) = 4096#32 + BitVec.ofNat 32 i.val := by
  have h3 : val_main_call2_v3 (F := F) (ix1 i) = 4096#32 + BitVec.ofNat 32 i.val := by
    rw [val_main_call2_v3_apply, val_main_call2_v2_apply, val_main_call2_c_apply, val_main_call2_v1_apply]; rfl
  rw [val_main_call2_v8_apply, val_main_call2_v5_apply, val_main_call2_v4_apply, val_main_call2_c_0_apply, h3]
  rw [slt_zero_of_small (by rw [toNat_shift]; have := i.isLt; omega)]
  exact select_zero _ _

/-- The lower diagonal's column column: the row number. -/
theorem call2_col (i : Fin 4096) : val_main_call2_v13 (F := F) (ix1 i) = BitVec.ofNat 32 i.val := by
  rw [val_main_call2_v13_apply, val_main_call2_v10_apply, val_main_call2_v9_apply, val_main_call2_c_2_apply,
    val_main_call2_v0_apply]
  show Scalar.select (IntOp.cmpi .slt (BitVec.ofNat 32 i.val) 0#32) _ (BitVec.ofNat 32 i.val) = _
  rw [slt_zero_of_small (by rw [toNat_row]; have := i.isLt; omega)]
  exact select_zero _ _

/-- The upper diagonal's start-index pair of row `i`, first component. -/
theorem call1_idx0 (i : Fin 4096) : val_main_call1_v16 (F := F) (ix2 i (0 : Fin 2)) = BitVec.ofNat 32 i.val := by
  unfold val_main_call1_v16
  refine (concatenate_pair_apply_left _ _ _ concatenates_S4096x1_S4096x1_S4096x2_d1 (ix2 i (0 : Fin 2)) rfl
    (ix2 i (0 : Fin 1)) (fun b => match b with | ⟨0, _⟩ => rfl | ⟨1, _⟩ => rfl)).trans ?_
  rw [val_main_call1_v14_apply]
  exact call1_row i

/-- The upper diagonal's start-index pair of row `i`, second component. -/
theorem call1_idx1 (i : Fin 4096) : val_main_call1_v16 (F := F) (ix2 i (1 : Fin 2)) = 4096#32 + BitVec.ofNat 32 i.val := by
  unfold val_main_call1_v16
  refine (concatenate_pair_apply_right _ _ _ concatenates_S4096x1_S4096x1_S4096x2_d1 (ix2 i (1 : Fin 2)) rfl rfl
    (ix2 i (0 : Fin 1)) (fun b => match b with | ⟨0, _⟩ => fun _ => rfl | ⟨1, _⟩ => fun h => absurd rfl h) rfl).trans ?_
  rw [val_main_call1_v15_apply]
  exact call1_col i

/-- The lower diagonal's start-index pair of row `i`, first component. -/
theorem call2_idx0 (i : Fin 4096) : val_main_call2_v16 (F := F) (ix2 i (0 : Fin 2)) = 4096#32 + BitVec.ofNat 32 i.val := by
  unfold val_main_call2_v16
  refine (concatenate_pair_apply_left _ _ _ concatenates_S4096x1_S4096x1_S4096x2_d1 (ix2 i (0 : Fin 2)) rfl
    (ix2 i (0 : Fin 1)) (fun b => match b with | ⟨0, _⟩ => rfl | ⟨1, _⟩ => rfl)).trans ?_
  rw [val_main_call2_v14_apply]
  exact call2_row i

/-- The lower diagonal's start-index pair of row `i`, second component. -/
theorem call2_idx1 (i : Fin 4096) : val_main_call2_v16 (F := F) (ix2 i (1 : Fin 2)) = BitVec.ofNat 32 i.val := by
  unfold val_main_call2_v16
  refine (concatenate_pair_apply_right _ _ _ concatenates_S4096x1_S4096x1_S4096x2_d1 (ix2 i (1 : Fin 2)) rfl rfl
    (ix2 i (0 : Fin 1)) (fun b => match b with | ⟨0, _⟩ => fun _ => rfl | ⟨1, _⟩ => fun h => absurd rfl h) rfl).trans ?_
  rw [val_main_call2_v15_apply]
  exact call2_col i

/-! ## The two diagonals and their concatenation: the similarity of each row with its partner -/

/-- The upper diagonal at `i`: the similarity matrix at `(i, 4096 + i)`. -/
theorem v8_at (x0 x1 : (⟨S4096x256, .f32⟩ : BufTy).Contents (Elt F)) (i : Fin 4096) :
    val_main_v8 (F := F) x0 x1 (ix1 i) = val_main_v7 (F := F) x0 x1
      (ix2 (⟨i.val, by have := i.isLt; omega⟩ : Fin 8192) (⟨4096 + i.val, by have := i.isLt; omega⟩ : Fin 8192)) := by
  unfold val_main_v8
  generalize val_main_v7 (F := F) x0 x1 = y
  refine (gather_point y _ i).trans (congrArg y (funext fun a => Fin.ext ?_))
  match a with
  | ⟨0, _⟩ =>
    show min (val_main_call1_v16 (F := F) (ix2 i (0 : Fin 2))).toInt.toNat 8191 = i.val
    rw [call1_idx0]; exact clamp_row i
  | ⟨1, _⟩ =>
    show min (val_main_call1_v16 (F := F) (ix2 i (1 : Fin 2))).toInt.toNat 8191 = 4096 + i.val
    rw [call1_idx1]; exact clamp_shift i

/-- The lower diagonal at `i`: the similarity matrix at `(4096 + i, i)`. -/
theorem v9_at (x0 x1 : (⟨S4096x256, .f32⟩ : BufTy).Contents (Elt F)) (i : Fin 4096) :
    val_main_v9 (F := F) x0 x1 (ix1 i) = val_main_v7 (F := F) x0 x1
      (ix2 (⟨4096 + i.val, by have := i.isLt; omega⟩ : Fin 8192) (⟨i.val, by have := i.isLt; omega⟩ : Fin 8192)) := by
  unfold val_main_v9
  generalize val_main_v7 (F := F) x0 x1 = y
  refine (gather_point y _ i).trans (congrArg y (funext fun a => Fin.ext ?_))
  match a with
  | ⟨0, _⟩ =>
    show min (val_main_call2_v16 (F := F) (ix2 i (0 : Fin 2))).toInt.toNat 8191 = 4096 + i.val
    rw [call2_idx0]; exact clamp_shift i
  | ⟨1, _⟩ =>
    show min (val_main_call2_v16 (F := F) (ix2 i (1 : Fin 2))).toInt.toNat 8191 = i.val
    rw [call2_idx1]; exact clamp_row i

/-- The concatenated diagonals at row `r`: the similarity matrix at `(r, partner r)`. -/
theorem v10_at (x0 x1 : (⟨S4096x256, .f32⟩ : BufTy).Contents (Elt F)) (r : Fin 8192) :
    val_main_v10 (F := F) x0 x1 (ix1 r) = val_main_v7 (F := F) x0 x1 (ix2 r (Cert.Spec.partner r)) := by
  unfold val_main_v10
  by_cases h : r.val < 4096
  · refine (concatenate_pair_apply_left _ _ _ concatenates_S4096_S4096_S8192_d0 (ix1 r) rfl (ix1 (⟨r.val, h⟩ : Fin 4096))
      (fun b => match b with | ⟨0, _⟩ => rfl)).trans ?_
    rw [v8_at]
    refine congrArg (val_main_v7 (F := F) x0 x1) (funext fun a => Fin.ext ?_)
    match a with
    | ⟨0, _⟩ => rfl
    | ⟨1, _⟩ => show 4096 + r.val = (r.val + 4096) % 8192; omega
  · refine (concatenate_pair_apply_right _ _ _ concatenates_S4096_S4096_S8192_d0 (ix1 r) rfl rfl
      (ix1 (⟨r.val - 4096, by have := r.isLt; omega⟩ : Fin 4096))
      (fun b => match b with | ⟨0, _⟩ => fun h => absurd rfl h)
      (by show r.val - 4096 + 4096 = r.val; omega)).trans ?_
    rw [v9_at]
    refine congrArg (val_main_v7 (F := F) x0 x1) (funext fun a => Fin.ext ?_)
    match a with
    | ⟨0, _⟩ => show 4096 + (r.val - 4096) = r.val; omega
    | ⟨1, _⟩ => show r.val - 4096 = (r.val + 4096) % 8192; have := r.isLt; omega

/-! ## The normalised rows and the similarity matrix -/

/-- The normalised rows as the reference computes them: its value %5 (concatenate, row norms clamped below by the
    word 0x2B8CBCCC, divide). Carried opaque: everything after it is a function of it alone. -/
def nR (x0 x1 : (⟨S4096x256, .f32⟩ : BufTy).Contents (Elt Ideal)) : Cert.Spec.Rows :=
  val_main_v5 (F := Ideal) x0 x1

/-- The similarity matrix at `(r, c)`: the dot product of the normalised rows `r` and `c` (the second operand is the
    transposed rows, read back through the transposition). -/
theorem v7_at (x0 x1 : (⟨S4096x256, .f32⟩ : BufTy).Contents (Elt Ideal)) (r c : Fin 8192) :
    val_main_v7 (F := Ideal) x0 x1 (ix2 r c) = Cert.Spec.sim (nR x0 x1) r c := by
  rw [val_main_v7_apply]
  unfold Cert.Spec.sim nR
  refine Finset.sum_congr rfl fun k _ => ?_
  rw [val_main_v6_apply]
  have e1 : lidx_main_v7 (ix2 r c) k = ix2 r k :=
    funext fun a => Fin.ext (by match a with | ⟨0, _⟩ => rfl | ⟨1, _⟩ => rfl)
  have e2 : idx_main_v6 (ridx_main_v7 (ix2 r c) k) = ix2 c k :=
    funext fun a => Fin.ext (by match a with | ⟨0, _⟩ => rfl | ⟨1, _⟩ => rfl)
  rw [e1, e2]

/-! ## The float words -/

/-- The word of `1.0` denotes `1`. -/
theorem ofBits_one : Ideal.ofBits .f32 0x3F800000#32 = 1 := by
  simp [Ideal.ofBits, Ideal.ieee, -EReal.coe_mul]; norm_num

/-- The word of `0.5` denotes the real `1/2`. -/
theorem ofBits_half : Ideal.ofBits .f32 0x3F000000#32 = ((1 / 2 : ℝ) : EReal) := by
  simp [Ideal.ofBits, Ideal.ieee, -EReal.coe_mul]; norm_num

/-- Dividing by the word of `0.5` doubles. -/
theorem div_half (x : EReal) : Ideal.div x (Ideal.ofBits .f32 0x3F000000#32) = x * 2 := by
  rw [ofBits_half, Ideal.div_coe (by norm_num)]
  have h2 : ((1 / (1 / 2 : ℝ) : ℝ) : EReal) = 2 := by
    rw [show (1 / (1 / 2 : ℝ) : ℝ) = ((2 : ℕ) : ℝ) by norm_num]; rfl
  rw [h2]

/-! ## The denominator: the row sums of the exponentials, the diagonal forced to zero before the exponential -/

/-- The comparison "row word plus zero equals column word" is the indicator of `r = c`: words of numbers below 8192
    are equal only if the numbers are. -/
theorem eq_word (r c : Fin 8192) :
    IntOp.cmpi .eq (IntOp.addi (BitVec.ofNat 32 r.val) 0#32) (BitVec.ofNat 32 c.val) = if r = c then 1#1 else 0#1 := by
  have h0 : IntOp.addi (BitVec.ofNat 32 r.val) 0#32 = BitVec.ofNat 32 r.val := by
    unfold IntOp.addi; exact BitVec.add_zero _
  rw [h0]
  by_cases h : r = c
  · rw [if_pos h, h]; exact Predicate.cmpi_eq_iff.mpr rfl
  · rw [if_neg h]
    refine eq_zero_of_ne_one fun h' => h (Fin.ext ?_)
    have := congrArg BitVec.toNat (Predicate.cmpi_eq_iff.mp h')
    rw [BitVec.toNat_ofNat, BitVec.toNat_ofNat] at this
    have hr := r.isLt; have hc := c.isLt; omega

/-- The one-bit word `1` converts to the float `1`. -/
theorem uitofp_one : FloatOps.uitofp (F := Ideal) .f32 (1#1 : BitVec 1) = (1 : EReal) := by
  show (((1#1 : BitVec 1).toNat : ℝ) : EReal) = 1
  norm_num

/-- The one-bit word `0` converts to the float `0`. -/
theorem uitofp_zero : FloatOps.uitofp (F := Ideal) .f32 (0#1 : BitVec 1) = (0 : EReal) := by
  show (((0#1 : BitVec 1).toNat : ℝ) : EReal) = 0
  norm_num

/-- The mask at `(r, c)`: one minus the indicator of the diagonal. -/
theorem v21_at (r c : Fin 8192) : val_main_v21 (F := Ideal) (ix2 r c) = (if r = c then 0 else 1 : EReal) := by
  rw [val_main_v21_apply, val_main_v20_apply, val_main_cst_1_apply, val_main_v19_apply, val_main_v18_apply,
    val_main_v17_apply, val_main_v14_apply, val_main_v16_apply, val_main_c_apply, val_main_v15_apply]
  show FloatOps.ofBits (F := Ideal) .f32 0x3F800000#32
    - FloatOps.uitofp (F := Ideal) .f32 (IntOp.cmpi .eq (IntOp.addi (BitVec.ofNat 32 r.val) 0#32) (BitVec.ofNat 32 c.val)) = _
  rw [eq_word, Ideal.ofBits_def, ofBits_one]
  by_cases h : r = c
  · rw [if_pos h, if_pos h, uitofp_one, ← EReal.coe_one, ← EReal.coe_sub, sub_self, EReal.coe_zero]
  · rw [if_neg h, if_neg h, uitofp_zero]; norm_num

/-- One summand of the denominator at `(r, c)`: the similarity times the mask is the similarity off the diagonal
    (`x * 1 = x`) and zero on it (`x * 0 = 0`, for every extended real), and the division by the word of `0.5` doubles. -/
theorem v25_at (x0 x1 : (⟨S4096x256, .f32⟩ : BufTy).Contents (Elt Ideal)) (r c : Fin 8192) :
    val_main_v25 (F := Ideal) x0 x1 (ix2 r c) = Cert.Spec.term (nR x0 x1) r c := by
  rw [val_main_v25_apply, val_main_v24_apply, val_main_v23_apply, val_main_cst_2_apply, val_main_v22_apply, v7_at,
    v21_at]
  show Ideal.exp (Ideal.div (Cert.Spec.sim (nR x0 x1) r c * (if r = c then 0 else 1))
    (Ideal.ofBits .f32 0x3F000000#32)) = _
  rw [div_half]
  unfold Cert.Spec.term
  by_cases h : r = c
  · rw [if_pos h, if_pos h, mul_zero]
  · rw [if_neg h, if_neg h, mul_one]

/-- The denominator of row `r`: the sum started from the zero word. -/
theorem v26_at (x0 x1 : (⟨S4096x256, .f32⟩ : BufTy).Contents (Elt Ideal)) (r : Fin 8192) :
    val_main_v26 (F := Ideal) x0 x1 (ix1 r) = Cert.Spec.den (nR x0 x1) r := by
  rw [val_main_v26_apply, val_main_cst_3_apply, Ideal.ofBits_def, Ideal.ofBits_zero_f32, zero_add]
  unfold Cert.Spec.den
  refine Finset.sum_congr rfl fun k _ => ?_
  have e : idx_main_v26 (ix1 r) k = ix2 r k :=
    funext fun a => Fin.ext (by match a with | ⟨0, _⟩ => rfl | ⟨1, _⟩ => rfl)
  rw [e, v25_at]

/-! ## The loss -/

/-- The negated logarithm of row `r`: the summand of the specification's loss. -/
theorem v29_at (x0 x1 : (⟨S4096x256, .f32⟩ : BufTy).Contents (Elt Ideal)) (r : Fin 8192) :
    val_main_v29 (F := Ideal) x0 x1 (ix1 r)
      = -(Ideal.log (Ideal.div (Ideal.exp (Ideal.div (Cert.Spec.pos (nR x0 x1) r) (Ideal.ofBits .f32 0x3F000000#32)))
          (Cert.Spec.den (nR x0 x1) r))) := by
  rw [val_main_v29_apply, val_main_v28_apply, val_main_v27_apply, val_main_v13_apply, val_main_v12_apply,
    val_main_v11_apply, val_main_cst_0_apply, v10_at, v7_at, v26_at]
  rfl

/-- The reference's result is the specification's loss of its normalised rows. -/
theorem v31_at (x0 x1 : (⟨S4096x256, .f32⟩ : BufTy).Contents (Elt Ideal)) :
    val_main_v31 (F := Ideal) x0 x1 ix0 = Cert.Spec.loss (nR x0 x1) := by
  have hs : ∑ j : S8192.Idx, val_main_v29 (F := Ideal) x0 x1 j
      = ∑ r : Fin 8192, -(Ideal.log (Ideal.div (Ideal.exp (Ideal.div (Cert.Spec.pos (nR x0 x1) r)
          (Ideal.ofBits .f32 0x3F000000#32))) (Cert.Spec.den (nR x0 x1) r))) := by
    rw [← Equiv.sum_comp (idxEquiv1 (n := 8192)).symm]
    exact Finset.sum_congr rfl fun r _ => v29_at x0 x1 r
  rw [val_main_v31_apply, val_main_cst_5_apply, val_main_v30_apply, val_main_cst_4_apply, hs]
  rfl

/-- The run's result: the specification's loss of the normalised rows of the two arguments. -/
theorem res_eq (m : (ℓ : Loc nD τ sig) → Buf (Elt Ideal) ℓ) (c : Dev nD) :
    Cert.ReferenceIdeal.Value.res_main_v31 (F := Ideal) m c
      = fun _ => Cert.Spec.loss (nR (m ((c.tc : Thread nD τ).loc main_arg0)) (m ((c.tc : Thread nD τ).loc main_arg1))) := by
  rw [val_main_v31_eq]
  funext i
  rw [eq_ix0 i]
  exact v31_at _ _

end Cert.ReferenceIdeal.RefValue

end
-- ==== Proof.lean ====
/-
  The certificate of the contrastive-loss kernel against its reference: the three frames, the idealization, and the
  equality of the two results over the extended reals.

  Both programs stack the two inputs into 8192 rows and normalise each row by max(‖row‖, a tiny word); call the
  normalised rows n. The reference forms the whole 8192 × 8192 similarity matrix n·nᵀ, multiplies it by (1 − identity),
  divides by ½, exponentiates and sums each row for the denominators, and gathers the two off-diagonals at distance 4096
  for the numerators' exponents. The kernel program computes the denominators tile by tile on an 8 × 8 grid of
  1024 × 1024 blocks — the diagonal forced to zero by a select on equal row and column numbers, the scale a product
  with 2, the row sums accumulated over the eight column tiles in a scratch column and written out after the last — and
  the numerators' exponents as row-by-row dot products of the two halves of n. What joins the two sides: x · 1 = x and
  x · 0 = 0 for every extended real (the masked product against the select), x / ½ = x · 2, the commutativity of the
  product (the second off-diagonal against the repeated dot products), and the regrouping of a sum over 8192 columns
  into eight sums over 1024; none of them asks the inputs to be finite. Everything after the denominators and the
  exponents is the same chain of operations on both sides and is carried as one function of the two.

  The kernel's two input windows read one array, so its frame is proved against the launch theorem directly, the
  shared buffer split between the windows while the region runs; the same text, generic in the float instance, serves
  the word-level program and its idealization. The reference's frame and value are its run, read back one operation
  at a time.
-/
import proofs.«162119_j65867618451797_1_alg».proof.Defs
import proofs.«162119_j65867618451797_1_alg».proof.Proof.Gen.Kernel
import proofs.«162119_j65867618451797_1_alg».proof.Proof.Gen.KernelIdeal
import proofs.«162119_j65867618451797_1_alg».proof.Proof.Gen.ReferenceIdeal
import proofs.«162119_j65867618451797_1_alg».proof.Proof.Gen.Pre_finite_inputs
import proofs.«162119_j65867618451797_1_alg».proof.Proof.Gen.ReferenceIdeal.Run
import proofs.«162119_j65867618451797_1_alg».proof.Proof.BLaunch
import proofs.«162119_j65867618451797_1_alg».proof.Proof.KLaunch
import proofs.«162119_j65867618451797_1_alg».proof.Proof.KAcc
import proofs.«162119_j65867618451797_1_alg».proof.Proof.RefValue
import Idealize.ShloMosaic.Adequacy
import Idealize.ShloMosaic.Init

noncomputable section

namespace Cert.Proof

open Idealize.ShloMosaic Idealize.ShloMosaic.TcCoe Idealize.SL.Sem

/-! ## The kernel program's result is the loss of the normalised rows -/

section KernelValue

open Cert.KernelIdeal Cert.KernelIdeal.Gen Cert.KernelIdeal.Hand Cert.KernelIdeal.HostSide

variable (m : (ℓ : Loc nD τ sig) → Buf (Elt Ideal) ℓ)

/-- The rows the region reads are the normalised rows themselves: the change of format is the identity here. -/
theorem rows_eq (c : Dev nD) :
    Cert.KernelIdeal.AccValue.rowsIn m c = nK (F := Ideal) (m ((c : Thread nD τ).loc main_arg0)) (m ((c : Thread nD τ).loc main_arg1)) :=
  (V_v6 m c).trans rfl

/-- The later operations applied to the normalised rows and to the region's final output array give the loss: the
    output array holds the denominators of those rows. -/
theorem kernel_value (c : Dev nD) :
    tailFn (F := Ideal) (nK (m ((c : Thread nD τ).loc main_arg0)) (m ((c : Thread nD τ).loc main_arg1))) ((dats m 0 c).arrAt 2 cfg0.N)
      = fun _ => Cert.Spec.loss (nK (F := Ideal) (m ((c : Thread nD τ).loc main_arg0)) (m ((c : Thread nD τ).loc main_arg1))) := by
  rw [tailFn_ideal]
  funext _
  unfold Cert.Spec.loss
  congr 1
  funext r
  rw [Cert.KernelIdeal.AccValue.final_den m c r, rows_eq]

end KernelValue

/-! ## The claims -/

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the loss of the same normalised rows: the
    kernel's by its run and the value of its output array, the reference's by its run read back; the two programs
    normalise by the same operations. -/
theorem algebraic : Cert.algebraic_KernelIdeal_ReferenceIdeal := by
  intro m ρ m' ρ' _ hagree
  refine ⟨fun c _ => Cert.Spec.loss (Cert.KernelIdeal.HostSide.nK (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · exact (θ_run Cert.KernelIdeal.defs _ _).mono (fun r h c => ⟨(h c).1.trans (kernel_value m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
